-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S1x2048x2048 : Shape := ⟨3, ![1, 2048, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v13 : IVec S_ 1) (main_v16 : IVec S1x2048x2048 1) : IVec S_ 1 :=
  let main_c_5 : IVec S_ 1 := constantI S_ 1 1#1
  let main_v17 : IVec S_ 1 := (fun x v => Host.reduce IntOp.andi x v reducesTo_S1x2048x2048_S_d0_1_2 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  main_v23

def fn {F : FTy → Type} [FloatOps F] (main_arg0 : FVec F S4096x2048 .f32) (main_arg1 : FVec F S2048x2048 .f32) (main_arg2 : FVec F S1x2048x2048 .f32) (main_arg3 : FVec F S1x2048x2048 .f32) (main_arg4 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1x2048x2048 .f32 := Host.absf main_arg2
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  let main_c_3 : IVec S_ 1 := constantI S_ 1 1#1
  let main_v12 : IVec S_ 1 := (fun x v => Host.reduce IntOp.andi x v reducesTo_S1x2048x2048_S_d0_1_2 h_S_) main_v11 main_c_3
  let main_v13 : IVec S_ 1 := andi main_v8 main_v12
  let main_v14 : FVec F S1x2048x2048 .f32 := Host.absf main_arg3
  let main_cst_4 : FVec F S_ .f32 := constant S_ .f32 0x7F800000#32
  let main_v15 : FVec F S1x2048x2048 .f32 := broadcastInDim S1x2048x2048 ![] bcast_S_S1x2048x2048 main_cst_4
  let main_v16 : IVec S1x2048x2048 1 := cmpf .olt main_v14 main_v15
  fn_part1 (F := F) main_arg4 main_v13 main_v16
-- ==== Kernel.lean ====
abbrev S4096x2048 : Shape := ⟨2, ![4096, 2048]⟩
abbrev S2048x2048 : Shape := ⟨2, ![2048, 2048]⟩
abbrev S1x2048x2048 : Shape := ⟨3, ![1, 2048, 2048]⟩
abbrev S1x2048 : Shape := ⟨2, ![1, 2048]⟩
abbrev S512x512 : Shape := ⟨2, ![512, 512]⟩
abbrev S1x512 : Shape := ⟨2, ![1, 512]⟩

abbrev nBuf : Space → Nat
  | .hbm => 10
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x2048x2048, .f32⟩
  | .hbm, ⟨3, _⟩ => ⟨S1x2048x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S1x512, .f32⟩
  | .local _ .vmem, ⟨18, _⟩ => ⟨S1x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_17 : BitVec 32 := 0#32
  let v29 : BitVec 1 := Scalar.cmpi .ne v28 c0_i32_17
  v29

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S1x2048x2048_S2048x2048 : S1x2048x2048.ShapeCasts S2048x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  broadcasts_S1x512_S512x512 : S1x512.Broadcasts S512x512
  dot_S512x512_S512x512_S512x512_1_0_0_1_n_n_wf : DotDims.WF S512x512 S512x512 S512x512 [1] [0] [0] [1] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x2048.size a
  hwx0_0 : ∀ i : grid0.Coords, EltTy.bits .f32 = 32 ∨ (Rect.block (s := S4096x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x2048.size a
  hwx0_2 : ∀ i : grid0.Coords, EltTy.bits .f32 = 32 ∨ (Rect.block (s := S4096x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x2048.size a
  hwx0_3 : ∀ i : grid0.Coords, EltTy.bits .f32 = 32 ∨ (Rect.block (s := S4096x2048) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x2048.size a
  hwx1_0 : ∀ i : grid1.Coords, EltTy.bits .f32 = 32 ∨ (Rect.block (s := S4096x2048) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x2048.size a
  hwx1_1 : ∀ i : grid1.Coords, EltTy.bits .f32 = 32 ∨ (Rect.block (s := S4096x2048) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S2048x2048.size a
  hwx1_2 : ∀ i : grid1.Coords, EltTy.bits .f32 = 32 ∨ (Rect.block (s := S2048x2048) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S2048x2048.size a
  hwx1_3 : ∀ i : grid1.Coords, EltTy.bits .f32 = 32 ∨ (Rect.block (s := S2048x2048) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x2048.size a
  hwx1_4 : ∀ i : grid1.Coords, EltTy.bits .f32 = 32 ∨ (Rect.block (s := S1x2048) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x2048.size a
  hwx1_5 : ∀ i : grid1.Coords, EltTy.bits .f32 = 32 ∨ (Rect.block (s := S4096x2048) S512x512.size (cc1_transform_5 i) (hinb1_5 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v2_0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S1x2048x2048 : Shape := ⟨3, ![1, 2048, 2048]⟩
abbrev S1x2048 : Shape := ⟨2, ![1, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x2048x2048, .f32⟩
  | .hbm, ⟨3, _⟩ => ⟨S1x2048x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S2048x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S4096x2048, .f32⟩
  | .hbm, ⟨17, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  shapeCasts_S1x2048x2048_S2048x2048 : S1x2048x2048.ShapeCasts S2048x2048
  bcast_S_S1x2048 : S_.BroadcastsInDim S1x2048 (![] : Fin 0 → Fin S1x2048.rank)
  bcast_S1x2048_S4096x2048_0_1 : S1x2048.BroadcastsInDim S4096x2048 (![0, 1] : Fin 2 → Fin S4096x2048.rank)
  dot_S4096x2048_S2048x2048_S4096x2048_1_0_0_1_n_n_wf : DotDims.WF S4096x2048 S2048x2048 S4096x2048 [1] [0] [0] [1] [] []
  dot_S4096x2048_S2048x2048_S4096x2048_1_1_0_0_n_n_wf : DotDims.WF S4096x2048 S2048x2048 S4096x2048 [1] [1] [0] [0] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.K.R0Shared.lean ====
/-
  Region 0 (the phase kernel: a 512×512 block of x·coefficients accumulated over four steps of the contracted
  axis in a scratch, its cosine and sine stored at the last step), what its three control cases share: the
  blocks the input windows hold at a grid point, the two branch conditions in closed form over the grid
  (the reset at steps ≡ 0 mod 4, the final stores at steps ≡ 3 mod 4), where the two output windows are idle,
  the staging and scratch memrefs, and the class invariant spelled buffer by buffer.
-/
import proofs.«105969_j84696755077155_1_alg».proof.Proof.Gen.Kernel.Launch
import proofs.«105969_j84696755077155_1_alg».proof.Proof.Gen.Kernel.Skeleton
import proofs.«105969_j84696755077155_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds its block at every point, for any proof data over these arrays whose body
    leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The coefficient window's staging buffer holds its block at every point, likewise. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The two branch conditions over the grid -/

/-- The reset's condition: the contracted-axis step is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The final stores' condition: the contracted-axis step is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last step nothing is stored into the cosine window, and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
/-- The same for the sine window. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

/-- One staging buffer of each output window, through which its contents are stated. -/
abbrev VO0_2 : View sig .tc .vmem S512x512 .f32 := (Memref.whole cc0_stg2_0 : Memref sig .tc .vmem S512x512 .f32).view
abbrev VO0_3 : View sig .tc .vmem S512x512 .f32 := (Memref.whole cc0_stg3_0 : Memref sig .tc .vmem S512x512 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
/-- The accumulator scratch, whole. -/
abbrev scM0_0 : Memref sig .tc .vmem S512x512 .f32 := Memref.whole cc0_scratch0
abbrev VS0_0 : View sig .tc .vmem S512x512 .f32 := scM0_0.view

/-- The core's scoped buffers that are neither a staging buffer of this region nor its accumulator (the other
    region's staging buffers and scratch), each at some contents: carried through the region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The class invariant of region 0, buffer by buffer: the accumulator at some contents, the other scoped buffers, the
    generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.Kernel.Fr

end
-- ==== Proof.K.R0RunA.lean ====
/-
  Region 0, the body's run at a first step of the contracted axis (the accumulator is reset, nothing is stored into the outputs): the stores it makes into each buffer as a list of pieces, found by running
  the kernel function symbolically on whole staging memrefs, with the triple that says so.
-/
import proofs.«105969_j84696755077155_1_alg».proof.Proof.K.R0Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 1000000 in
/-- At a first step: the inputs' buffers at their blocks `x0`, `x1`, the two output buffers at contents handed back untouched,
    the accumulator at anything; the body ends with the accumulator's pieces `LS0` written. -/
noncomputable def kernelRun0_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S512x512 .f32) (x1 : Vec F S512x512 .f32) :
    Σ' (L2 : List (View.Piece (Elt F) S512x512 .f32)) (L3 : List (View.Piece (Elt F) S512x512 .f32)), { LS0 : List (View.Piece (Elt F) S512x512 .f32) //
      ∀ (xi2 xi3 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__harmonic_kernel i arg3 harg3 arg4 harg4 arg5 harg5 arg6 harg6 arg7 harg7) K } := by
  refine ⟨[], [], ?_, fun xi2 xi3 E K => ?run⟩
  case run =>
    simp only [cc0__harmonic_kernel_eq_skeleton]; unfold cc0__harmonic_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R0RunB.lean ====
/-
  Region 0, the body's run at a middle step of the contracted axis (the accumulator is added to, nothing is stored into the outputs): the stores it makes into each buffer as a list of pieces, found by running
  the kernel function symbolically on whole staging memrefs, with the triple that says so.
-/
import proofs.«105969_j84696755077155_1_alg».proof.Proof.K.R0Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 1000000 in
/-- At a middle step: as at a first step, but the accumulator at the contents `xs0` the step before left. -/
noncomputable def kernelRun0_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S512x512 .f32) (x1 : Vec F S512x512 .f32) (xs0 : Vec F S512x512 .f32) :
    Σ' (L2 : List (View.Piece (Elt F) S512x512 .f32)) (L3 : List (View.Piece (Elt F) S512x512 .f32)), { LS0 : List (View.Piece (Elt F) S512x512 .f32) //
      ∀ (xi2 xi3 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__harmonic_kernel i arg3 harg3 arg4 harg4 arg5 harg5 arg6 harg6 arg7 harg7) K } := by
  refine ⟨[], [], ?_, fun xi2 xi3 E K => ?run⟩
  case run =>
    simp only [cc0__harmonic_kernel_eq_skeleton]; unfold cc0__harmonic_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R0RunC.lean ====
/-
  Region 0, the body's run at a last step of the contracted axis (the accumulator is added to, then its cosine and sine are stored): the stores it makes into each buffer as a list of pieces, found by running
  the kernel function symbolically on whole staging memrefs, with the triple that says so.
-/
import proofs.«105969_j84696755077155_1_alg».proof.Proof.K.R0Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 1000000 in
/-- At a last step: the accumulator at the contents `xs0` the step before left, the two output buffers at anything; the body
    ends with each output's pieces `L2`, `L3` and the accumulator's `LS0` written. -/
noncomputable def kernelRun0_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S512x512 .f32) (x1 : Vec F S512x512 .f32) (xs0 : Vec F S512x512 .f32) :
    Σ' (L2 : List (View.Piece (Elt F) S512x512 .f32)) (L3 : List (View.Piece (Elt F) S512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__harmonic_kernel i arg3 harg3 arg4 harg4 arg5 harg5 arg6 harg6 arg7 harg7) K } := by
  refine ⟨?_, ?_, ?_, fun E K => ?run⟩
  case run =>
    simp only [cc0__harmonic_kernel_eq_skeleton]; unfold cc0__harmonic_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg3.eq_unread hf0; obtain rfl := harg4.eq_unread hf1; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

end Cert.Kernel.Fr

end
-- ==== Proof.K.R0Frame.lean ====
/-
  Region 0, its proof data and body obligation. The accumulator scratch is carried from grid point to grid point:
  `accAt0` says what it holds after each point (reset and first product at steps ≡ 0 mod 4, one more product added at
  every other step), and at the last step of each group of four the cosine and sine blocks are what the body stores
  from it. The region invariant after a point holds the accumulator at `accAt0` of that point.
-/
import proofs.«105969_j84696755077155_1_alg».proof.Proof.K.R0RunA
import proofs.«105969_j84696755077155_1_alg».proof.Proof.K.R0RunB
import proofs.«105969_j84696755077155_1_alg».proof.Proof.K.R0RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-! ## The three cases' runs at a grid point -/

/-- The first-step run at point `t`, on the point's staging memrefs and input blocks. -/
abbrev runA0 (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => by have := (hcond0_1 t).mp h; omega) (iblk0 V c 0 t) (iblk0 V c 1 t)
/-- The middle-step run at point `t`, over the accumulator contents `xs`. -/
abbrev runB0 (c : Dev nD) (t : Fin cfg0.N) (h0 : ¬t.val % 4 = 0) (h1 : ¬t.val % 4 = 3) (xs : Vec F S512x512 .f32) :=
  kernelRun0_B (F := F) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) (fun h => h1 ((hcond0_1 t).mp h)) (iblk0 V c 0 t) (iblk0 V c 1 t) xs
/-- The last-step run at point `t`, over the accumulator contents `xs`. -/
abbrev runC0 (c : Dev nD) (t : Fin cfg0.N) (h1 : t.val % 4 = 3) (xs : Vec F S512x512 .f32) :=
  kernelRun0_C (F := F) c (grid0.coords t) (ms0_0 t) (hs0_0 t) (ms0_1 t) (hs0_1 t) (ms0_2 t) (hs0_2 t) (ms0_3 t) (hs0_3 t) scM0_0 (Memref.isWhole_whole _)
    (fun h => by have := (hcond0_0 t).mp h; omega) ((hcond0_1 t).mpr h1) (iblk0 V c 0 t) (iblk0 V c 1 t) xs

/-- Each case's accumulator pieces cover the scratch. -/
theorem scoverA0 (c : Dev nD) (t : Fin cfg0.N) (h0 : t.val % 4 = 0) (y : S512x512.Idx) :
    ∃ pc ∈ (runA0 V c t h0).2.2.1, y ∈ pc.1.set :=
  View.cover_of_tiledL (runA0 V c t h0).2.2.1 S512x512.size (by sl_kernel_rfl) y
theorem scoverB0 (c : Dev nD) (t : Fin cfg0.N) (h0 : ¬t.val % 4 = 0) (h1 : ¬t.val % 4 = 3) (xs : Vec F S512x512 .f32) (y : S512x512.Idx) :
    ∃ pc ∈ (runB0 V c t h0 h1 xs).2.2.1, y ∈ pc.1.set :=
  View.cover_of_tiledL (runB0 V c t h0 h1 xs).2.2.1 S512x512.size (by sl_kernel_rfl) y
theorem scoverC0 (c : Dev nD) (t : Fin cfg0.N) (h1 : t.val % 4 = 3) (xs : Vec F S512x512 .f32) (y : S512x512.Idx) :
    ∃ pc ∈ (runC0 V c t h1 xs).2.2.1, y ∈ pc.1.set :=
  View.cover_of_tiledL (runC0 V c t h1 xs).2.2.1 S512x512.size (by sl_kernel_rfl) y
/-- The last step's cosine and sine pieces cover their blocks. -/
theorem cover2C0 (c : Dev nD) (t : Fin cfg0.N) (h1 : t.val % 4 = 3) (xs : Vec F S512x512 .f32) (y : S512x512.Idx) :
    ∃ pc ∈ (runC0 V c t h1 xs).1, y ∈ pc.1.set :=
  View.cover_of_tiledL (runC0 V c t h1 xs).1 S512x512.size (by sl_kernel_rfl) y
theorem cover3C0 (c : Dev nD) (t : Fin cfg0.N) (h1 : t.val % 4 = 3) (xs : Vec F S512x512 .f32) (y : S512x512.Idx) :
    ∃ pc ∈ (runC0 V c t h1 xs).2.1, y ∈ pc.1.set :=
  View.cover_of_tiledL (runC0 V c t h1 xs).2.1 S512x512.size (by sl_kernel_rfl) y

/-- What each case leaves in the accumulator: its pieces read back. -/
def soutA0 (c : Dev nD) (t : Fin cfg0.N) (h0 : t.val % 4 = 0) : Vec F S512x512 .f32 :=
  VS0_0.read (Elt F) (VS0_0.writes (Elt F) VS0_0.junk (runA0 V c t h0).2.2.1)
def soutB0 (c : Dev nD) (t : Fin cfg0.N) (h0 : ¬t.val % 4 = 0) (h1 : ¬t.val % 4 = 3) (xs : Vec F S512x512 .f32) : Vec F S512x512 .f32 :=
  VS0_0.read (Elt F) (VS0_0.writes (Elt F) VS0_0.junk (runB0 V c t h0 h1 xs).2.2.1)
def soutC0 (c : Dev nD) (t : Fin cfg0.N) (h1 : t.val % 4 = 3) (xs : Vec F S512x512 .f32) : Vec F S512x512 .f32 :=
  VS0_0.read (Elt F) (VS0_0.writes (Elt F) VS0_0.junk (runC0 V c t h1 xs).2.2.1)
/-- What the last step leaves in the cosine and the sine staging buffers. -/
def out2C0 (c : Dev nD) (t : Fin cfg0.N) (h1 : t.val % 4 = 3) (xs : Vec F S512x512 .f32) : Vec F S512x512 .f32 :=
  VO0_2.read (Elt F) (VO0_2.writes (Elt F) VO0_2.junk (runC0 V c t h1 xs).1)
def out3C0 (c : Dev nD) (t : Fin cfg0.N) (h1 : t.val % 4 = 3) (xs : Vec F S512x512 .f32) : Vec F S512x512 .f32 :=
  VO0_3.read (Elt F) (VO0_3.writes (Elt F) VO0_3.junk (runC0 V c t h1 xs).2.1)

/-! ## The accumulator point by point -/

/-- What the accumulator holds after the body at position `n`. -/
def accAt0 (c : Dev nD) : (n : ℕ) → n < cfg0.N → Vec F S512x512 .f32
  | 0, hn => soutA0 V c ⟨0, hn⟩ (Nat.zero_mod _)
  | n + 1, hn =>
    if h0 : (n + 1) % 4 = 0 then soutA0 V c ⟨n + 1, hn⟩ h0
    else if h1 : (n + 1) % 4 = 3 then soutC0 V c ⟨n + 1, hn⟩ h1 (accAt0 c n (Nat.lt_of_succ_lt hn))
    else soutB0 V c ⟨n + 1, hn⟩ h0 h1 (accAt0 c n (Nat.lt_of_succ_lt hn))

theorem accAt0_A (c : Dev nD) (t : Fin cfg0.N) (h0 : t.val % 4 = 0) :
    accAt0 V c t.val t.isLt = soutA0 V c t h0 := by
  obtain ⟨n, hn⟩ := t
  cases n with
  | zero => rfl
  | succ n => exact dif_pos h0
theorem accAt0_B (c : Dev nD) (t : Fin cfg0.N) (h0 : ¬t.val % 4 = 0) (h1 : ¬t.val % 4 = 3) :
    accAt0 V c t.val t.isLt = soutB0 V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)
theorem accAt0_C (c : Dev nD) (t : Fin cfg0.N) (h1 : t.val % 4 = 3) :
    accAt0 V c t.val t.isLt = soutC0 V c t h1 (accAt0 V c (t.val - 1) (Nat.lt_of_le_of_lt (Nat.sub_le _ _) t.isLt)) := by
  obtain ⟨n, hn⟩ := t
  cases n with
  | zero => exact (by exfalso; (try dsimp only at h1); omega)
  | succ n =>
    have h1' : (n + 1) % 4 = 3 := h1
    exact (dif_neg (by omega)).trans (dif_pos h1)

/-- What the cosine and sine staging buffers hold after the body at point `t`: at a last step the stored blocks, computed
    from what the step before left in the accumulator; elsewhere the field is not consulted. -/
def cosAt0 (c : Dev nD) (t : Fin cfg0.N) : Vec F S512x512 .f32 :=
  if h1 : t.val % 4 = 3 then out2C0 V c t h1 (accAt0 V c (t.val - 1) (Nat.lt_of_le_of_lt (Nat.sub_le _ _) t.isLt))
  else VO0_2.read (Elt F) VO0_2.junk
def sinAt0 (c : Dev nD) (t : Fin cfg0.N) : Vec F S512x512 .f32 :=
  if h1 : t.val % 4 = 3 then out3C0 V c t h1 (accAt0 V c (t.val - 1) (Nat.lt_of_le_of_lt (Nat.sub_le _ _) t.isLt))
  else VO0_3.read (Elt F) VO0_3.junk

/-! ## The invariant and the proof data -/

/-- The region invariant before position `n`: before the first point the class's (every scratch at anything); afterwards the
    accumulator at what the point before left, the other scoped buffers and the generator register at some state. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (accAt0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (accAt0 V c (n - 1) (by omega)) ∗ others0 c) ∗ (∃ r, prngReg c r)) := by
  cases n with
  | zero => exact absurd rfl hz
  | succ n => rfl

/-- The proof data of region 0 on core `c`, over the contents `V` the region is entered at. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => cosAt0 V c t
    | ⟨3, _⟩ => sinAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = cosAt0 V c t := by dsimp only [dat0]
theorem after0_3 (c : Dev nD) (t : Fin cfg0.N) : (dat0 V c).after 3 t = sinAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' staging buffers hold their blocks; the point's residue mod 4 says which case it is in;
    the invariant hands the accumulator at what the point before left (at anything before the first point) and takes it back
    at this point's contents; the idle output buffers go back untouched, and at a last step they are stored whole. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 4 = 3
  · have h0 : ¬t.val % 4 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [show (dat0 V c).leavesExact 3 t = owns (c : Thread nD τ) (ms0_3 t) fullShare ((dat0 V c).after 3 t) from by
      unfold Dat.leavesExact; rw [liveAt0_3 t ((hcond0_1 t).mpr h1)], after0_3]
    rw [accAt0_C V c t h1]
    unfold cosAt0 sinAt0; rw [dif_pos h1, dif_pos h1]
    unfold out2C0 out3C0 soutC0; (try dsimp only)
    rw [PhiS0_castSucc V c t, PhiS0_pos V c _ _ hz]
    iintro ⟨⟨⟨HS0, Hoth⟩, Hg⟩, Ho, ⟨%d0, H0⟩, ⟨%d1, H1⟩, ⟨%d2, H2⟩, ⟨%d3, H3⟩⟩
    iapply ((runC0 V c t h1 _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scoverC0 V c t h1 _)
        iexact Hoth
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover2C0 V c t h1 _)
    unfold owns; iexists _; isplitr
    swap; · iexact H3
    ipureintro; exact View.read_writes_of_cover _ _ _ _ _ (cover3C0 V c t h1 _)
  · have hc1 : ¬cond0_1 (grid0.coords t) := fun h => h1 ((hcond0_1 t).mp h)
    rw [Dat.leavesExact_idle (dat0 V c) 2 t (idleAt0_2 t hc1) (noFlush0_2 t hc1)]
    rw [Dat.leavesExact_idle (dat0 V c) 3 t (idleAt0_3 t hc1) (noFlush0_3 t hc1)]
    by_cases h0 : t.val % 4 = 0
    · rw [accAt0_A V c t h0]
      unfold soutA0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩⟩
        iapply ((runA0 V c t h0).2.2.2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA0 V c t h0)
            iexact Hoth
          iexact Hg
        isplitl [Ho]; · iexact Ho
        isplitl [H0]; · iexact H0
        isplitl [H1]; · iexact H1
        isplitl [H2]; · iexists _; iexact H2
        iexists _; iexact H3
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩⟩
        iapply ((runA0 V c t h0).2.2.2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA0 V c t h0)
            iexact Hoth
          iexact Hg
        isplitl [Ho]; · iexact Ho
        isplitl [H0]; · iexact H0
        isplitl [H1]; · iexact H1
        isplitl [H2]; · iexists _; iexact H2
        iexists _; iexact H3
    · have hz : t.val ≠ 0 := by omega
      rw [accAt0_B V c t h0 h1]
      unfold soutB0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((runB0 V c t h0 h1 _).2.2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverB0 V c t h0 h1 _)
          iexact Hoth
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end

end Cert.Kernel.Fr

end
-- ==== Proof.K.R1Shared.lean ====
/-
  Region 1 (the gain kernel: a 512×512 block accumulated in a scratch over four steps of the contracted axis, two
  products of a truncated input block with a truncated coefficient block added in at each step, the bias row scaled
  and added and the block stored at the last step), what its three control cases share: the blocks the input windows
  hold at a grid point, the two branch conditions in closed form over the grid (the reset at steps ≡ 0 mod 4, the
  final store at steps ≡ 3 mod 4), where the output window is idle, the staging and scratch memrefs, and the class
  invariant spelled buffer by buffer.
-/
import proofs.«105969_j84696755077155_1_alg».proof.Proof.Gen.Kernel.Launch
import proofs.«105969_j84696755077155_1_alg».proof.Proof.Gen.Kernel.Skeleton
import proofs.«105969_j84696755077155_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first product window's staging buffer holds its block at every point, for any proof data over these arrays whose body
    leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second product window's staging buffer holds its block at every point, likewise. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The first coefficient window's staging buffer holds its block at every point, likewise. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The second coefficient window's staging buffer holds its block at every point, likewise. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds its block at every point as well: it is fetched only where its block index
    moves (the first step of each run of the contracted axis), and in between the buffer still holds that block. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions over the grid -/

/-- The reset's condition: the contracted-axis step is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The final store's condition: the contracted-axis step is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last step nothing is stored into the output window, and its block is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

/-- One staging buffer of the output window, through which its contents are stated. -/
abbrev VO1_5 : View sig .tc .vmem S512x512 .f32 := (Memref.whole cc1_stg5_0 : Memref sig .tc .vmem S512x512 .f32).view
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .f32 := win1_5.stage (cfg1.slots t 5)
abbrev hs1_5 (t : Fin cfg1.N) : (ms1_5 t).IsWhole := hstage1_5 ((cfg1.slots t 5).cast nbuf1_5)
/-- The accumulator scratch, whole. -/
abbrev scM1_0 : Memref sig .tc .vmem S512x512 .f32 := Memref.whole cc1_scratch0
abbrev VS1_0 : View sig .tc .vmem S512x512 .f32 := scM1_0.view

/-- The core's scoped buffers that are neither a staging buffer of this region nor its accumulator (the other
    region's staging buffers and scratch), each at some contents: carried through the region untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The last of ten separated assertions moved to the front, beside a frame: by commuting and re-associating the
    separating conjunction. -/
theorem sep_last_front {M : Type} [URA M] (A0 A1 A2 A3 A4 A5 A6 A7 A8 S R : sProp M) :
    (iprop((A0 ∗ A1 ∗ A2 ∗ A3 ∗ A4 ∗ A5 ∗ A6 ∗ A7 ∗ A8 ∗ S) ∗ R) : sProp M) = iprop((S ∗ A0 ∗ A1 ∗ A2 ∗ A3 ∗ A4 ∗ A5 ∗ A6 ∗ A7 ∗ A8) ∗ R) := by
  have h₁ : iprop((A0 ∗ A1 ∗ A2 ∗ A3 ∗ A4 ∗ A5 ∗ A6 ∗ A7 ∗ A8 ∗ S) ∗ R) ⊢ (iprop((S ∗ A0 ∗ A1 ∗ A2 ∗ A3 ∗ A4 ∗ A5 ∗ A6 ∗ A7 ∗ A8) ∗ R) : sProp M) := by
    iintro ⟨⟨H0, H1, H2, H3, H4, H5, H6, H7, H8, HS⟩, HR⟩
    iframe
  have h₂ : iprop((S ∗ A0 ∗ A1 ∗ A2 ∗ A3 ∗ A4 ∗ A5 ∗ A6 ∗ A7 ∗ A8) ∗ R) ⊢ (iprop((A0 ∗ A1 ∗ A2 ∗ A3 ∗ A4 ∗ A5 ∗ A6 ∗ A7 ∗ A8 ∗ S) ∗ R) : sProp M) := by
    iintro ⟨⟨HS, H0, H1, H2, H3, H4, H5, H6, H7, H8⟩, HR⟩
    iframe
  exact BI.equiv_iff.mp ⟨h₁, h₂⟩

/-- The class invariant of region 1, buffer by buffer: the accumulator at some contents, the other scoped buffers, the
    generator register at some state. The scoped buffers are listed with the accumulator last; here it stands first. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA others1; rw [scopedRest1_eq]; simp only [scM1_0, owns_whole]
  exact sep_last_front _ _ _ _ _ _ _ _ _ _ _

end Cert.Kernel.Fr

end
-- ==== Proof.K.R1RunA.lean ====
/-
  Region 1, the body's run at a first step of the contracted axis (the accumulator is reset, then the two products are added in; nothing is stored into the output): the stores it makes into each buffer as a list of pieces, found by running
  the kernel function symbolically on whole staging memrefs, with the triple that says so.
-/
import proofs.«105969_j84696755077155_1_alg».proof.Proof.K.R1Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 1000000 in
/-- At a first step: the inputs' buffers at their blocks `x0` … `x4`, the output buffer at contents handed back untouched,
    the accumulator at anything; the body ends with the accumulator's pieces `LS0` written. -/
noncomputable def kernelRun1_A (c : Dev nD) (i : grid1.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : cond1_0 i) (hc1 : ¬cond1_1 i)
    (x0 : Vec F S512x512 .f32) (x1 : Vec F S512x512 .f32) (x2 : Vec F S512x512 .f32) (x3 : Vec F S512x512 .f32) (x4 : Vec F S1x512 .f32) :
    Σ' (L5 : List (View.Piece (Elt F) S512x512 .f32)), { LS0 : List (View.Piece (Elt F) S512x512 .f32) //
      ∀ (xi5 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__gain_kernel i arg3 harg3 arg4 harg4 arg5 harg5 arg6 harg6 arg7 harg7 arg8 harg8 arg9 harg9) K } := by
  refine ⟨[], ?_, fun xi5 E K => ?run⟩
  case run =>
    simp only [cc1__gain_kernel_eq_skeleton]; unfold cc1__gain_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.K.R1RunB.lean ====
/-
  Region 1, the body's run at a middle step of the contracted axis (the two products are added into the accumulator; nothing is stored into the output): the stores it makes into each buffer as a list of pieces, found by running
  the kernel function symbolically on whole staging memrefs, with the triple that says so.
-/
import proofs.«105969_j84696755077155_1_alg».proof.Proof.K.R1Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 1000000 in
/-- At a middle step: as at a first step, but the accumulator at the contents `xs0` the step before left. -/
noncomputable def kernelRun1_B (c : Dev nD) (i : grid1.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : ¬cond1_1 i)
    (x0 : Vec F S512x512 .f32) (x1 : Vec F S512x512 .f32) (x2 : Vec F S512x512 .f32) (x3 : Vec F S512x512 .f32) (x4 : Vec F S1x512 .f32) (xs0 : Vec F S512x512 .f32) :
    Σ' (L5 : List (View.Piece (Elt F) S512x512 .f32)), { LS0 : List (View.Piece (Elt F) S512x512 .f32) //
      ∀ (xi5 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__gain_kernel i arg3 harg3 arg4 harg4 arg5 harg5 arg6 harg6 arg7 harg7 arg8 harg8 arg9 harg9) K } := by
  refine ⟨[], ?_, fun xi5 E K => ?run⟩
  case run =>
    simp only [cc1__gain_kernel_eq_skeleton]; unfold cc1__gain_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.K.R1RunC.lean ====
/-
  Region 1, the body's run at a last step of the contracted axis (the two products are added into the accumulator, then the accumulator plus the scaled bias row is stored): the stores it makes into each buffer as a list of pieces, found by running
  the kernel function symbolically on whole staging memrefs, with the triple that says so.
-/
import proofs.«105969_j84696755077155_1_alg».proof.Proof.K.R1Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 1000000 in
/-- At a last step: the accumulator at the contents `xs0` the step before left, the output buffer at anything; the body
    ends with the output's pieces `L5` and the accumulator's `LS0` written. -/
noncomputable def kernelRun1_C (c : Dev nD) (i : grid1.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 : Vec F S512x512 .f32) (x1 : Vec F S512x512 .f32) (x2 : Vec F S512x512 .f32) (x3 : Vec F S512x512 .f32) (x4 : Vec F S1x512 .f32) (xs0 : Vec F S512x512 .f32) :
    Σ' (L5 : List (View.Piece (Elt F) S512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__gain_kernel i arg3 harg3 arg4 harg4 arg5 harg5 arg6 harg6 arg7 harg7 arg8 harg8 arg9 harg9) K } := by
  refine ⟨?_, ?_, fun E K => ?run⟩
  case run =>
    simp only [cc1__gain_kernel_eq_skeleton]; unfold cc1__gain_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Fr

end
-- ==== Proof.K.R1Frame.lean ====
/-
  Region 1, its proof data and body obligation. The accumulator scratch is carried from grid point to grid point:
  `accAt1` says what it holds after each point (reset and the first two products at steps ≡ 0 mod 4, two more products
  added at every other step), and at the last step of each group of four the output block is what the body stores from it
  and the bias row. The region invariant after a point holds the accumulator at `accAt1` of that point.
-/
import proofs.«105969_j84696755077155_1_alg».proof.Proof.K.R1RunA
import proofs.«105969_j84696755077155_1_alg».proof.Proof.K.R1RunB
import proofs.«105969_j84696755077155_1_alg».proof.Proof.K.R1RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-! ## The three cases' runs at a grid point -/

/-- The first-step run at point `t`, on the point's staging memrefs and input blocks. -/
abbrev runA1 (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _)
    ((hcond1_0 t).mpr h0) (fun h => by have := (hcond1_1 t).mp h; omega) (iblk1 V c 0 t) (iblk1 V c 1 t) (iblk1 V c 2 t) (iblk1 V c 3 t) (iblk1 V c 4 t)
/-- The middle-step run at point `t`, over the accumulator contents `xs`. -/
abbrev runB1 (c : Dev nD) (t : Fin cfg1.N) (h0 : ¬t.val % 4 = 0) (h1 : ¬t.val % 4 = 3) (xs : Vec F S512x512 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _)
    (fun h => h0 ((hcond1_0 t).mp h)) (fun h => h1 ((hcond1_1 t).mp h)) (iblk1 V c 0 t) (iblk1 V c 1 t) (iblk1 V c 2 t) (iblk1 V c 3 t) (iblk1 V c 4 t) xs
/-- The last-step run at point `t`, over the accumulator contents `xs`. -/
abbrev runC1 (c : Dev nD) (t : Fin cfg1.N) (h1 : t.val % 4 = 3) (xs : Vec F S512x512 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _)
    (fun h => by have := (hcond1_0 t).mp h; omega) ((hcond1_1 t).mpr h1) (iblk1 V c 0 t) (iblk1 V c 1 t) (iblk1 V c 2 t) (iblk1 V c 3 t) (iblk1 V c 4 t) xs

/-- Each case's accumulator pieces cover the scratch. -/
theorem scoverA1 (c : Dev nD) (t : Fin cfg1.N) (h0 : t.val % 4 = 0) (y : S512x512.Idx) :
    ∃ pc ∈ (runA1 V c t h0).2.1, y ∈ pc.1.set :=
  View.cover_of_tiledL (runA1 V c t h0).2.1 S512x512.size (by sl_kernel_rfl) y
theorem scoverB1 (c : Dev nD) (t : Fin cfg1.N) (h0 : ¬t.val % 4 = 0) (h1 : ¬t.val % 4 = 3) (xs : Vec F S512x512 .f32) (y : S512x512.Idx) :
    ∃ pc ∈ (runB1 V c t h0 h1 xs).2.1, y ∈ pc.1.set :=
  View.cover_of_tiledL (runB1 V c t h0 h1 xs).2.1 S512x512.size (by sl_kernel_rfl) y
theorem scoverC1 (c : Dev nD) (t : Fin cfg1.N) (h1 : t.val % 4 = 3) (xs : Vec F S512x512 .f32) (y : S512x512.Idx) :
    ∃ pc ∈ (runC1 V c t h1 xs).2.1, y ∈ pc.1.set :=
  View.cover_of_tiledL (runC1 V c t h1 xs).2.1 S512x512.size (by sl_kernel_rfl) y
/-- The last step's output pieces cover their block. -/
theorem cover5C1 (c : Dev nD) (t : Fin cfg1.N) (h1 : t.val % 4 = 3) (xs : Vec F S512x512 .f32) (y : S512x512.Idx) :
    ∃ pc ∈ (runC1 V c t h1 xs).1, y ∈ pc.1.set :=
  View.cover_of_tiledL (runC1 V c t h1 xs).1 S512x512.size (by sl_kernel_rfl) y

/-- What each case leaves in the accumulator: its pieces read back. -/
def soutA1 (c : Dev nD) (t : Fin cfg1.N) (h0 : t.val % 4 = 0) : Vec F S512x512 .f32 :=
  VS1_0.read (Elt F) (VS1_0.writes (Elt F) VS1_0.junk (runA1 V c t h0).2.1)
def soutB1 (c : Dev nD) (t : Fin cfg1.N) (h0 : ¬t.val % 4 = 0) (h1 : ¬t.val % 4 = 3) (xs : Vec F S512x512 .f32) : Vec F S512x512 .f32 :=
  VS1_0.read (Elt F) (VS1_0.writes (Elt F) VS1_0.junk (runB1 V c t h0 h1 xs).2.1)
def soutC1 (c : Dev nD) (t : Fin cfg1.N) (h1 : t.val % 4 = 3) (xs : Vec F S512x512 .f32) : Vec F S512x512 .f32 :=
  VS1_0.read (Elt F) (VS1_0.writes (Elt F) VS1_0.junk (runC1 V c t h1 xs).2.1)
/-- What the last step leaves in the output staging buffer. -/
def out5C1 (c : Dev nD) (t : Fin cfg1.N) (h1 : t.val % 4 = 3) (xs : Vec F S512x512 .f32) : Vec F S512x512 .f32 :=
  VO1_5.read (Elt F) (VO1_5.writes (Elt F) VO1_5.junk (runC1 V c t h1 xs).1)

/-! ## The accumulator point by point -/

/-- What the accumulator holds after the body at position `n`. -/
def accAt1 (c : Dev nD) : (n : ℕ) → n < cfg1.N → Vec F S512x512 .f32
  | 0, hn => soutA1 V c ⟨0, hn⟩ (Nat.zero_mod _)
  | n + 1, hn =>
    if h0 : (n + 1) % 4 = 0 then soutA1 V c ⟨n + 1, hn⟩ h0
    else if h1 : (n + 1) % 4 = 3 then soutC1 V c ⟨n + 1, hn⟩ h1 (accAt1 c n (Nat.lt_of_succ_lt hn))
    else soutB1 V c ⟨n + 1, hn⟩ h0 h1 (accAt1 c n (Nat.lt_of_succ_lt hn))

theorem accAt1_A (c : Dev nD) (t : Fin cfg1.N) (h0 : t.val % 4 = 0) :
    accAt1 V c t.val t.isLt = soutA1 V c t h0 := by
  obtain ⟨n, hn⟩ := t
  cases n with
  | zero => rfl
  | succ n => exact dif_pos h0
theorem accAt1_B (c : Dev nD) (t : Fin cfg1.N) (h0 : ¬t.val % 4 = 0) (h1 : ¬t.val % 4 = 3) :
    accAt1 V c t.val t.isLt = soutB1 V c t h0 h1 (accAt1 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)
theorem accAt1_C (c : Dev nD) (t : Fin cfg1.N) (h1 : t.val % 4 = 3) :
    accAt1 V c t.val t.isLt = soutC1 V c t h1 (accAt1 V c (t.val - 1) (Nat.lt_of_le_of_lt (Nat.sub_le _ _) t.isLt)) := by
  obtain ⟨n, hn⟩ := t
  cases n with
  | zero => exact (by exfalso; (try dsimp only at h1); omega)
  | succ n =>
    have h1' : (n + 1) % 4 = 3 := h1
    exact (dif_neg (by omega)).trans (dif_pos h1)

/-- What the output staging buffer holds after the body at point `t`: at a last step the stored block, computed from what
    the step before left in the accumulator; elsewhere the field is not consulted. -/
def gainAt1 (c : Dev nD) (t : Fin cfg1.N) : Vec F S512x512 .f32 :=
  if h1 : t.val % 4 = 3 then out5C1 V c t h1 (accAt1 V c (t.val - 1) (Nat.lt_of_le_of_lt (Nat.sub_le _ _) t.isLt))
  else VO1_5.read (Elt F) VO1_5.junk

/-! ## The invariant and the proof data -/

/-- The region invariant before position `n`: before the first point the class's (every scratch at anything); afterwards the
    accumulator at what the point before left, the other scoped buffers and the generator register at some state. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (accAt1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ others1 c) ∗ (∃ r, prngReg c r)) := by
  cases n with
  | zero => exact absurd rfl hz
  | succ n => rfl

/-- The proof data of region 1 on core `c`, over the contents `V` the region is entered at. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => gainAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = gainAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' staging buffers hold their blocks; the point's residue mod 4 says which case it is in;
    the invariant hands the accumulator at what the point before left (at anything before the first point) and takes it back
    at this point's contents; the idle output buffer goes back untouched, and at a last step it is stored whole. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h1 : t.val % 4 = 3
  · have h0 : ¬t.val % 4 = 0 := by omega
    have hz : t.val ≠ 0 := by omega
    rw [show (dat1 V c).leavesExact 5 t = owns (c : Thread nD τ) (ms1_5 t) fullShare ((dat1 V c).after 5 t) from by
      unfold Dat.leavesExact; rw [liveAt1_5 t ((hcond1_1 t).mpr h1)], after1_5]
    rw [accAt1_C V c t h1]
    unfold gainAt1; rw [dif_pos h1]
    unfold out5C1 soutC1; (try dsimp only)
    rw [PhiS1_castSucc V c t, PhiS1_pos V c _ _ hz]
    iintro ⟨⟨⟨HS0, Hoth⟩, Hg⟩, Ho, ⟨%d0, H0⟩, ⟨%d1, H1⟩, ⟨%d2, H2⟩, ⟨%d3, H3⟩, ⟨%d4, H4⟩, ⟨%d5, H5⟩⟩
    iapply ((runC1 V c t h1 _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scoverC1 V c t h1 _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover5C1 V c t h1 _)
  · have hc1 : ¬cond1_1 (grid1.coords t) := fun h => h1 ((hcond1_1 t).mp h)
    rw [Dat.leavesExact_idle (dat1 V c) 5 t (idleAt1_5 t hc1) (noFlush1_5 t hc1)]
    by_cases h0 : t.val % 4 = 0
    · rw [accAt1_A V c t h0]
      unfold soutA1; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((runA1 V c t h0).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA1 V c t h0)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((runA1 V c t h0).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA1 V c t h0)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · have hz : t.val ≠ 0 := by omega
      rw [accAt1_B V c t h0 h1]
      unfold soutB1; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((runB1 V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverB1 V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

end

end Cert.Kernel.Fr

end
-- ==== Proof.K.Run.lean ====
/-
  The whole program's run: @main is two reshapes on the host (the amplitudes' unit axis dropped), then the phase region,
  then the gain region. Between two items a core holds every unscoped buffer at contents named here: the launch memory,
  then the host operations applied, then the phase region's two output arrays at what its pipeline leaves, then the gain
  region's output array at what its pipeline leaves. Each region is entered from these buffers, its arrays split off and
  put back; its invariant takes the scoped rest and the generator register and gives them back, the accumulator forgotten.
  The conclusion names every unscoped buffer of the final memory; the frame claim and the value claim read it.
-/
import proofs.«105969_j84696755077155_1_alg».proof.Proof.K.R0Frame
import proofs.«105969_j84696755077155_1_alg».proof.Proof.K.R1Frame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m (c, b)
/-- After the two host reshapes (the phase region's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the phase region: its arrays at what the pipeline leaves, every other buffer as entered (the gain region's entry). -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the gain region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## What the host reshapes write, and leave alone -/

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall]; exact ⟨by simp only [StableHlo.reshape_writes, Finset.singleton_subset_iff, List.mem_toFinset]; exact List.mem_map_of_mem (by decide), by simp only [StableHlo.reshape_writes, Finset.singleton_subset_iff, List.mem_toFinset]; exact List.mem_map_of_mem (by decide)⟩
theorem W1_of (c : Dev nD) (r : Ref sig .tc) (h : r ∉ hostOps0_W) : W1 m c r = W0 m c r :=
  StableHlo.after_of_writes_sub hostOps0 _ hostOps0_writes h

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = m ((c : Thread nD τ).loc main_arg1) := W1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 4).trans (((dat1 (V2 m) c).arrAt_in 4 rfl _).trans (A_eq1 (V2 m) c 4))
    _ = W1 m c (Proc.devRef .tc main_arg4) := W2_of_ne m c main_arg4 (by decide)
    _ = m ((c : Thread nD τ).loc main_arg4) := W1_of m c main_arg4 (by decide)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The phase region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    have h := hin0 (V1 m) c
    unfold Pipeline.ΦA at h
    iintro ⟨Hp, -, Hr⟩
    iapply h
    isplitl [Hr]; · iexact Hr
    iexact Hp
  hout c := by
    rw [Pipeline.ownSems0_none]
    rw [show (pdats m 0 c).Φ (Fin.last _) = (dat0 (V1 m) c).Φ (Fin.last cfg0.N) from rfl]
    have h := hout0 (V1 m) c
    unfold Pipeline.ΦA at h
    iintro HPhi
    ihave HA := h $$ HPhi
    icases HA with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gain region: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    have h := hin1 (V2 m) c
    unfold Pipeline.ΦA at h
    iintro ⟨Hp, -, Hr⟩
    iapply h
    isplitl [Hr]; · iexact Hr
    iexact Hp
  hout c := by
    rw [Pipeline.ownSems0_none]
    rw [show (pdats m 1 c).Φ (Fin.last _) = (dat1 (V2 m) c).Φ (Fin.last cfg1.N) from rfl]
    have h := hout1 (V2 m) c
    unfold Pipeline.ΦA at h
    iintro HPhi
    ihave HA := h $$ HPhi
    icases HA with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and the
    final memory holds every unscoped buffer at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame claim's post, at any `F`: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.Kernel.Fr

end
-- ==== Proof.KI.R0Shared.lean ====
/-
  Region 0 (the phase kernel: a 512×512 block of x·coefficients accumulated over four steps of the contracted
  axis in a scratch, its cosine and sine stored at the last step), what its three control cases share: the
  blocks the input windows hold at a grid point, the two branch conditions in closed form over the grid
  (the reset at steps ≡ 0 mod 4, the final stores at steps ≡ 3 mod 4), where the two output windows are idle,
  the staging and scratch memrefs, and the class invariant spelled buffer by buffer.
-/
import proofs.«105969_j84696755077155_1_alg».proof.Proof.Gen.KernelIdeal.Launch
import proofs.«105969_j84696755077155_1_alg».proof.Proof.Gen.KernelIdeal.Skeleton
import proofs.«105969_j84696755077155_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds its block at every point, for any proof data over these arrays whose body
    leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The coefficient window's staging buffer holds its block at every point, likewise. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The two branch conditions over the grid -/

/-- The reset's condition: the contracted-axis step is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The final stores' condition: the contracted-axis step is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last step nothing is stored into the cosine window, and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
/-- The same for the sine window. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

/-- One staging buffer of each output window, through which its contents are stated. -/
abbrev VO0_2 : View sig .tc .vmem S512x512 .f32 := (Memref.whole cc0_stg2_0 : Memref sig .tc .vmem S512x512 .f32).view
abbrev VO0_3 : View sig .tc .vmem S512x512 .f32 := (Memref.whole cc0_stg3_0 : Memref sig .tc .vmem S512x512 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
/-- The accumulator scratch, whole. -/
abbrev scM0_0 : Memref sig .tc .vmem S512x512 .f32 := Memref.whole cc0_scratch0
abbrev VS0_0 : View sig .tc .vmem S512x512 .f32 := scM0_0.view

/-- The core's scoped buffers that are neither a staging buffer of this region nor its accumulator (the other
    region's staging buffers and scratch), each at some contents: carried through the region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The class invariant of region 0, buffer by buffer: the accumulator at some contents, the other scoped buffers, the
    generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.KernelIdeal.Fr

end
-- ==== Proof.KI.R0RunA.lean ====
/-
  Region 0, the body's run at a first step of the contracted axis (the accumulator is reset, nothing is stored into the outputs): the stores it makes into each buffer as a list of pieces, found by running
  the kernel function symbolically on whole staging memrefs, with the triple that says so.
-/
import proofs.«105969_j84696755077155_1_alg».proof.Proof.KI.R0Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 1000000 in
/-- At a first step: the inputs' buffers at their blocks `x0`, `x1`, the two output buffers at contents handed back untouched,
    the accumulator at anything; the body ends with the accumulator's pieces `LS0` written. -/
noncomputable def kernelRun0_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S512x512 .f32) (x1 : Vec F S512x512 .f32) :
    Σ' (L2 : List (View.Piece (Elt F) S512x512 .f32)) (L3 : List (View.Piece (Elt F) S512x512 .f32)), { LS0 : List (View.Piece (Elt F) S512x512 .f32) //
      ∀ (xi2 xi3 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__harmonic_kernel i arg3 harg3 arg4 harg4 arg5 harg5 arg6 harg6 arg7 harg7) K } := by
  refine ⟨[], [], ?_, fun xi2 xi3 E K => ?run⟩
  case run =>
    simp only [cc0__harmonic_kernel_eq_skeleton]; unfold cc0__harmonic_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R0RunB.lean ====
/-
  Region 0, the body's run at a middle step of the contracted axis (the accumulator is added to, nothing is stored into the outputs): the stores it makes into each buffer as a list of pieces, found by running
  the kernel function symbolically on whole staging memrefs, with the triple that says so.
-/
import proofs.«105969_j84696755077155_1_alg».proof.Proof.KI.R0Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 1000000 in
/-- At a middle step: as at a first step, but the accumulator at the contents `xs0` the step before left. -/
noncomputable def kernelRun0_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S512x512 .f32) (x1 : Vec F S512x512 .f32) (xs0 : Vec F S512x512 .f32) :
    Σ' (L2 : List (View.Piece (Elt F) S512x512 .f32)) (L3 : List (View.Piece (Elt F) S512x512 .f32)), { LS0 : List (View.Piece (Elt F) S512x512 .f32) //
      ∀ (xi2 xi3 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__harmonic_kernel i arg3 harg3 arg4 harg4 arg5 harg5 arg6 harg6 arg7 harg7) K } := by
  refine ⟨[], [], ?_, fun xi2 xi3 E K => ?run⟩
  case run =>
    simp only [cc0__harmonic_kernel_eq_skeleton]; unfold cc0__harmonic_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R0RunC.lean ====
/-
  Region 0, the body's run at a last step of the contracted axis (the accumulator is added to, then its cosine and sine are stored): the stores it makes into each buffer as a list of pieces, found by running
  the kernel function symbolically on whole staging memrefs, with the triple that says so.
-/
import proofs.«105969_j84696755077155_1_alg».proof.Proof.KI.R0Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 1000000 in
/-- At a last step: the accumulator at the contents `xs0` the step before left, the two output buffers at anything; the body
    ends with each output's pieces `L2`, `L3` and the accumulator's `LS0` written. -/
noncomputable def kernelRun0_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S512x512 .f32) (x1 : Vec F S512x512 .f32) (xs0 : Vec F S512x512 .f32) :
    Σ' (L2 : List (View.Piece (Elt F) S512x512 .f32)) (L3 : List (View.Piece (Elt F) S512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__harmonic_kernel i arg3 harg3 arg4 harg4 arg5 harg5 arg6 harg6 arg7 harg7) K } := by
  refine ⟨?_, ?_, ?_, fun E K => ?run⟩
  case run =>
    simp only [cc0__harmonic_kernel_eq_skeleton]; unfold cc0__harmonic_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg3.eq_unread hf0; obtain rfl := harg4.eq_unread hf1; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

end Cert.KernelIdeal.Fr

end
-- ==== Proof.KI.R0Frame.lean ====
/-
  Region 0, its proof data and body obligation. The accumulator scratch is carried from grid point to grid point:
  `accAt0` says what it holds after each point (reset and first product at steps ≡ 0 mod 4, one more product added at
  every other step), and at the last step of each group of four the cosine and sine blocks are what the body stores
  from it. The region invariant after a point holds the accumulator at `accAt0` of that point.
-/
import proofs.«105969_j84696755077155_1_alg».proof.Proof.KI.R0RunA
import proofs.«105969_j84696755077155_1_alg».proof.Proof.KI.R0RunB
import proofs.«105969_j84696755077155_1_alg».proof.Proof.KI.R0RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-! ## The three cases' runs at a grid point -/

/-- The first-step run at point `t`, on the point's staging memrefs and input blocks. -/
abbrev runA0 (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => by have := (hcond0_1 t).mp h; omega) (iblk0 V c 0 t) (iblk0 V c 1 t)
/-- The middle-step run at point `t`, over the accumulator contents `xs`. -/
abbrev runB0 (c : Dev nD) (t : Fin cfg0.N) (h0 : ¬t.val % 4 = 0) (h1 : ¬t.val % 4 = 3) (xs : Vec F S512x512 .f32) :=
  kernelRun0_B (F := F) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) (fun h => h1 ((hcond0_1 t).mp h)) (iblk0 V c 0 t) (iblk0 V c 1 t) xs
/-- The last-step run at point `t`, over the accumulator contents `xs`. -/
abbrev runC0 (c : Dev nD) (t : Fin cfg0.N) (h1 : t.val % 4 = 3) (xs : Vec F S512x512 .f32) :=
  kernelRun0_C (F := F) c (grid0.coords t) (ms0_0 t) (hs0_0 t) (ms0_1 t) (hs0_1 t) (ms0_2 t) (hs0_2 t) (ms0_3 t) (hs0_3 t) scM0_0 (Memref.isWhole_whole _)
    (fun h => by have := (hcond0_0 t).mp h; omega) ((hcond0_1 t).mpr h1) (iblk0 V c 0 t) (iblk0 V c 1 t) xs

/-- Each case's accumulator pieces cover the scratch. -/
theorem scoverA0 (c : Dev nD) (t : Fin cfg0.N) (h0 : t.val % 4 = 0) (y : S512x512.Idx) :
    ∃ pc ∈ (runA0 V c t h0).2.2.1, y ∈ pc.1.set :=
  View.cover_of_tiledL (runA0 V c t h0).2.2.1 S512x512.size (by sl_kernel_rfl) y
theorem scoverB0 (c : Dev nD) (t : Fin cfg0.N) (h0 : ¬t.val % 4 = 0) (h1 : ¬t.val % 4 = 3) (xs : Vec F S512x512 .f32) (y : S512x512.Idx) :
    ∃ pc ∈ (runB0 V c t h0 h1 xs).2.2.1, y ∈ pc.1.set :=
  View.cover_of_tiledL (runB0 V c t h0 h1 xs).2.2.1 S512x512.size (by sl_kernel_rfl) y
theorem scoverC0 (c : Dev nD) (t : Fin cfg0.N) (h1 : t.val % 4 = 3) (xs : Vec F S512x512 .f32) (y : S512x512.Idx) :
    ∃ pc ∈ (runC0 V c t h1 xs).2.2.1, y ∈ pc.1.set :=
  View.cover_of_tiledL (runC0 V c t h1 xs).2.2.1 S512x512.size (by sl_kernel_rfl) y
/-- The last step's cosine and sine pieces cover their blocks. -/
theorem cover2C0 (c : Dev nD) (t : Fin cfg0.N) (h1 : t.val % 4 = 3) (xs : Vec F S512x512 .f32) (y : S512x512.Idx) :
    ∃ pc ∈ (runC0 V c t h1 xs).1, y ∈ pc.1.set :=
  View.cover_of_tiledL (runC0 V c t h1 xs).1 S512x512.size (by sl_kernel_rfl) y
theorem cover3C0 (c : Dev nD) (t : Fin cfg0.N) (h1 : t.val % 4 = 3) (xs : Vec F S512x512 .f32) (y : S512x512.Idx) :
    ∃ pc ∈ (runC0 V c t h1 xs).2.1, y ∈ pc.1.set :=
  View.cover_of_tiledL (runC0 V c t h1 xs).2.1 S512x512.size (by sl_kernel_rfl) y

/-- What each case leaves in the accumulator: its pieces read back. -/
def soutA0 (c : Dev nD) (t : Fin cfg0.N) (h0 : t.val % 4 = 0) : Vec F S512x512 .f32 :=
  VS0_0.read (Elt F) (VS0_0.writes (Elt F) VS0_0.junk (runA0 V c t h0).2.2.1)
def soutB0 (c : Dev nD) (t : Fin cfg0.N) (h0 : ¬t.val % 4 = 0) (h1 : ¬t.val % 4 = 3) (xs : Vec F S512x512 .f32) : Vec F S512x512 .f32 :=
  VS0_0.read (Elt F) (VS0_0.writes (Elt F) VS0_0.junk (runB0 V c t h0 h1 xs).2.2.1)
def soutC0 (c : Dev nD) (t : Fin cfg0.N) (h1 : t.val % 4 = 3) (xs : Vec F S512x512 .f32) : Vec F S512x512 .f32 :=
  VS0_0.read (Elt F) (VS0_0.writes (Elt F) VS0_0.junk (runC0 V c t h1 xs).2.2.1)
/-- What the last step leaves in the cosine and the sine staging buffers. -/
def out2C0 (c : Dev nD) (t : Fin cfg0.N) (h1 : t.val % 4 = 3) (xs : Vec F S512x512 .f32) : Vec F S512x512 .f32 :=
  VO0_2.read (Elt F) (VO0_2.writes (Elt F) VO0_2.junk (runC0 V c t h1 xs).1)
def out3C0 (c : Dev nD) (t : Fin cfg0.N) (h1 : t.val % 4 = 3) (xs : Vec F S512x512 .f32) : Vec F S512x512 .f32 :=
  VO0_3.read (Elt F) (VO0_3.writes (Elt F) VO0_3.junk (runC0 V c t h1 xs).2.1)

/-! ## The accumulator point by point -/

/-- What the accumulator holds after the body at position `n`. -/
def accAt0 (c : Dev nD) : (n : ℕ) → n < cfg0.N → Vec F S512x512 .f32
  | 0, hn => soutA0 V c ⟨0, hn⟩ (Nat.zero_mod _)
  | n + 1, hn =>
    if h0 : (n + 1) % 4 = 0 then soutA0 V c ⟨n + 1, hn⟩ h0
    else if h1 : (n + 1) % 4 = 3 then soutC0 V c ⟨n + 1, hn⟩ h1 (accAt0 c n (Nat.lt_of_succ_lt hn))
    else soutB0 V c ⟨n + 1, hn⟩ h0 h1 (accAt0 c n (Nat.lt_of_succ_lt hn))

theorem accAt0_A (c : Dev nD) (t : Fin cfg0.N) (h0 : t.val % 4 = 0) :
    accAt0 V c t.val t.isLt = soutA0 V c t h0 := by
  obtain ⟨n, hn⟩ := t
  cases n with
  | zero => rfl
  | succ n => exact dif_pos h0
theorem accAt0_B (c : Dev nD) (t : Fin cfg0.N) (h0 : ¬t.val % 4 = 0) (h1 : ¬t.val % 4 = 3) :
    accAt0 V c t.val t.isLt = soutB0 V c t h0 h1 (accAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)
theorem accAt0_C (c : Dev nD) (t : Fin cfg0.N) (h1 : t.val % 4 = 3) :
    accAt0 V c t.val t.isLt = soutC0 V c t h1 (accAt0 V c (t.val - 1) (Nat.lt_of_le_of_lt (Nat.sub_le _ _) t.isLt)) := by
  obtain ⟨n, hn⟩ := t
  cases n with
  | zero => exact (by exfalso; (try dsimp only at h1); omega)
  | succ n =>
    have h1' : (n + 1) % 4 = 3 := h1
    exact (dif_neg (by omega)).trans (dif_pos h1)

/-- What the cosine and sine staging buffers hold after the body at point `t`: at a last step the stored blocks, computed
    from what the step before left in the accumulator; elsewhere the field is not consulted. -/
def cosAt0 (c : Dev nD) (t : Fin cfg0.N) : Vec F S512x512 .f32 :=
  if h1 : t.val % 4 = 3 then out2C0 V c t h1 (accAt0 V c (t.val - 1) (Nat.lt_of_le_of_lt (Nat.sub_le _ _) t.isLt))
  else VO0_2.read (Elt F) VO0_2.junk
def sinAt0 (c : Dev nD) (t : Fin cfg0.N) : Vec F S512x512 .f32 :=
  if h1 : t.val % 4 = 3 then out3C0 V c t h1 (accAt0 V c (t.val - 1) (Nat.lt_of_le_of_lt (Nat.sub_le _ _) t.isLt))
  else VO0_3.read (Elt F) VO0_3.junk

/-! ## The invariant and the proof data -/

/-- The region invariant before position `n`: before the first point the class's (every scratch at anything); afterwards the
    accumulator at what the point before left, the other scoped buffers and the generator register at some state. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (accAt0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (accAt0 V c (n - 1) (by omega)) ∗ others0 c) ∗ (∃ r, prngReg c r)) := by
  cases n with
  | zero => exact absurd rfl hz
  | succ n => rfl

/-- The proof data of region 0 on core `c`, over the contents `V` the region is entered at. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => cosAt0 V c t
    | ⟨3, _⟩ => sinAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = cosAt0 V c t := by dsimp only [dat0]
theorem after0_3 (c : Dev nD) (t : Fin cfg0.N) : (dat0 V c).after 3 t = sinAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' staging buffers hold their blocks; the point's residue mod 4 says which case it is in;
    the invariant hands the accumulator at what the point before left (at anything before the first point) and takes it back
    at this point's contents; the idle output buffers go back untouched, and at a last step they are stored whole. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 4 = 3
  · have h0 : ¬t.val % 4 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [show (dat0 V c).leavesExact 3 t = owns (c : Thread nD τ) (ms0_3 t) fullShare ((dat0 V c).after 3 t) from by
      unfold Dat.leavesExact; rw [liveAt0_3 t ((hcond0_1 t).mpr h1)], after0_3]
    rw [accAt0_C V c t h1]
    unfold cosAt0 sinAt0; rw [dif_pos h1, dif_pos h1]
    unfold out2C0 out3C0 soutC0; (try dsimp only)
    rw [PhiS0_castSucc V c t, PhiS0_pos V c _ _ hz]
    iintro ⟨⟨⟨HS0, Hoth⟩, Hg⟩, Ho, ⟨%d0, H0⟩, ⟨%d1, H1⟩, ⟨%d2, H2⟩, ⟨%d3, H3⟩⟩
    iapply ((runC0 V c t h1 _).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scoverC0 V c t h1 _)
        iexact Hoth
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover2C0 V c t h1 _)
    unfold owns; iexists _; isplitr
    swap; · iexact H3
    ipureintro; exact View.read_writes_of_cover _ _ _ _ _ (cover3C0 V c t h1 _)
  · have hc1 : ¬cond0_1 (grid0.coords t) := fun h => h1 ((hcond0_1 t).mp h)
    rw [Dat.leavesExact_idle (dat0 V c) 2 t (idleAt0_2 t hc1) (noFlush0_2 t hc1)]
    rw [Dat.leavesExact_idle (dat0 V c) 3 t (idleAt0_3 t hc1) (noFlush0_3 t hc1)]
    by_cases h0 : t.val % 4 = 0
    · rw [accAt0_A V c t h0]
      unfold soutA0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩⟩
        iapply ((runA0 V c t h0).2.2.2 _ _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA0 V c t h0)
            iexact Hoth
          iexact Hg
        isplitl [Ho]; · iexact Ho
        isplitl [H0]; · iexact H0
        isplitl [H1]; · iexact H1
        isplitl [H2]; · iexists _; iexact H2
        iexists _; iexact H3
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩⟩
        iapply ((runA0 V c t h0).2.2.2 _ _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA0 V c t h0)
            iexact Hoth
          iexact Hg
        isplitl [Ho]; · iexact Ho
        isplitl [H0]; · iexact H0
        isplitl [H1]; · iexact H1
        isplitl [H2]; · iexists _; iexact H2
        iexists _; iexact H3
    · have hz : t.val ≠ 0 := by omega
      rw [accAt0_B V c t h0 h1]
      unfold soutB0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((runB0 V c t h0 h1 _).2.2.2 _ _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverB0 V c t h0 h1 _)
          iexact Hoth
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end

end Cert.KernelIdeal.Fr

end
-- ==== Proof.KI.R1Shared.lean ====
/-
  Region 1 (the gain kernel: a 512×512 block accumulated in a scratch over four steps of the contracted axis, two
  products of a truncated input block with a truncated coefficient block added in at each step, the bias row scaled
  and added and the block stored at the last step), what its three control cases share: the blocks the input windows
  hold at a grid point, the two branch conditions in closed form over the grid (the reset at steps ≡ 0 mod 4, the
  final store at steps ≡ 3 mod 4), where the output window is idle, the staging and scratch memrefs, and the class
  invariant spelled buffer by buffer.
-/
import proofs.«105969_j84696755077155_1_alg».proof.Proof.Gen.KernelIdeal.Launch
import proofs.«105969_j84696755077155_1_alg».proof.Proof.Gen.KernelIdeal.Skeleton
import proofs.«105969_j84696755077155_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first product window's staging buffer holds its block at every point, for any proof data over these arrays whose body
    leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second product window's staging buffer holds its block at every point, likewise. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The first coefficient window's staging buffer holds its block at every point, likewise. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The second coefficient window's staging buffer holds its block at every point, likewise. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds its block at every point as well: it is fetched only where its block index
    moves (the first step of each run of the contracted axis), and in between the buffer still holds that block. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions over the grid -/

/-- The reset's condition: the contracted-axis step is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The final store's condition: the contracted-axis step is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last step nothing is stored into the output window, and its block is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

/-- One staging buffer of the output window, through which its contents are stated. -/
abbrev VO1_5 : View sig .tc .vmem S512x512 .f32 := (Memref.whole cc1_stg5_0 : Memref sig .tc .vmem S512x512 .f32).view
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .f32 := win1_5.stage (cfg1.slots t 5)
abbrev hs1_5 (t : Fin cfg1.N) : (ms1_5 t).IsWhole := hstage1_5 ((cfg1.slots t 5).cast nbuf1_5)
/-- The accumulator scratch, whole. -/
abbrev scM1_0 : Memref sig .tc .vmem S512x512 .f32 := Memref.whole cc1_scratch0
abbrev VS1_0 : View sig .tc .vmem S512x512 .f32 := scM1_0.view

/-- The core's scoped buffers that are neither a staging buffer of this region nor its accumulator (the other
    region's staging buffers and scratch), each at some contents: carried through the region untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The last of ten separated assertions moved to the front, beside a frame: by commuting and re-associating the
    separating conjunction. -/
theorem sep_last_front {M : Type} [URA M] (A0 A1 A2 A3 A4 A5 A6 A7 A8 S R : sProp M) :
    (iprop((A0 ∗ A1 ∗ A2 ∗ A3 ∗ A4 ∗ A5 ∗ A6 ∗ A7 ∗ A8 ∗ S) ∗ R) : sProp M) = iprop((S ∗ A0 ∗ A1 ∗ A2 ∗ A3 ∗ A4 ∗ A5 ∗ A6 ∗ A7 ∗ A8) ∗ R) := by
  have h₁ : iprop((A0 ∗ A1 ∗ A2 ∗ A3 ∗ A4 ∗ A5 ∗ A6 ∗ A7 ∗ A8 ∗ S) ∗ R) ⊢ (iprop((S ∗ A0 ∗ A1 ∗ A2 ∗ A3 ∗ A4 ∗ A5 ∗ A6 ∗ A7 ∗ A8) ∗ R) : sProp M) := by
    iintro ⟨⟨H0, H1, H2, H3, H4, H5, H6, H7, H8, HS⟩, HR⟩
    iframe
  have h₂ : iprop((S ∗ A0 ∗ A1 ∗ A2 ∗ A3 ∗ A4 ∗ A5 ∗ A6 ∗ A7 ∗ A8) ∗ R) ⊢ (iprop((A0 ∗ A1 ∗ A2 ∗ A3 ∗ A4 ∗ A5 ∗ A6 ∗ A7 ∗ A8 ∗ S) ∗ R) : sProp M) := by
    iintro ⟨⟨HS, H0, H1, H2, H3, H4, H5, H6, H7, H8⟩, HR⟩
    iframe
  exact BI.equiv_iff.mp ⟨h₁, h₂⟩

/-- The class invariant of region 1, buffer by buffer: the accumulator at some contents, the other scoped buffers, the
    generator register at some state. The scoped buffers are listed with the accumulator last; here it stands first. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA others1; rw [scopedRest1_eq]; simp only [scM1_0, owns_whole]
  exact sep_last_front _ _ _ _ _ _ _ _ _ _ _

end Cert.KernelIdeal.Fr

end
-- ==== Proof.KI.R1RunA.lean ====
/-
  Region 1, the body's run at a first step of the contracted axis (the accumulator is reset, then the two products are added in; nothing is stored into the output): the stores it makes into each buffer as a list of pieces, found by running
  the kernel function symbolically on whole staging memrefs, with the triple that says so.
-/
import proofs.«105969_j84696755077155_1_alg».proof.Proof.KI.R1Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 1000000 in
/-- At a first step: the inputs' buffers at their blocks `x0` … `x4`, the output buffer at contents handed back untouched,
    the accumulator at anything; the body ends with the accumulator's pieces `LS0` written. -/
noncomputable def kernelRun1_A (c : Dev nD) (i : grid1.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : cond1_0 i) (hc1 : ¬cond1_1 i)
    (x0 : Vec F S512x512 .f32) (x1 : Vec F S512x512 .f32) (x2 : Vec F S512x512 .f32) (x3 : Vec F S512x512 .f32) (x4 : Vec F S1x512 .f32) :
    Σ' (L5 : List (View.Piece (Elt F) S512x512 .f32)), { LS0 : List (View.Piece (Elt F) S512x512 .f32) //
      ∀ (xi5 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__gain_kernel i arg3 harg3 arg4 harg4 arg5 harg5 arg6 harg6 arg7 harg7 arg8 harg8 arg9 harg9) K } := by
  refine ⟨[], ?_, fun xi5 E K => ?run⟩
  case run =>
    simp only [cc1__gain_kernel_eq_skeleton]; unfold cc1__gain_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KI.R1RunB.lean ====
/-
  Region 1, the body's run at a middle step of the contracted axis (the two products are added into the accumulator; nothing is stored into the output): the stores it makes into each buffer as a list of pieces, found by running
  the kernel function symbolically on whole staging memrefs, with the triple that says so.
-/
import proofs.«105969_j84696755077155_1_alg».proof.Proof.KI.R1Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 1000000 in
/-- At a middle step: as at a first step, but the accumulator at the contents `xs0` the step before left. -/
noncomputable def kernelRun1_B (c : Dev nD) (i : grid1.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : ¬cond1_1 i)
    (x0 : Vec F S512x512 .f32) (x1 : Vec F S512x512 .f32) (x2 : Vec F S512x512 .f32) (x3 : Vec F S512x512 .f32) (x4 : Vec F S1x512 .f32) (xs0 : Vec F S512x512 .f32) :
    Σ' (L5 : List (View.Piece (Elt F) S512x512 .f32)), { LS0 : List (View.Piece (Elt F) S512x512 .f32) //
      ∀ (xi5 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__gain_kernel i arg3 harg3 arg4 harg4 arg5 harg5 arg6 harg6 arg7 harg7 arg8 harg8 arg9 harg9) K } := by
  refine ⟨[], ?_, fun xi5 E K => ?run⟩
  case run =>
    simp only [cc1__gain_kernel_eq_skeleton]; unfold cc1__gain_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KI.R1RunC.lean ====
/-
  Region 1, the body's run at a last step of the contracted axis (the two products are added into the accumulator, then the accumulator plus the scaled bias row is stored): the stores it makes into each buffer as a list of pieces, found by running
  the kernel function symbolically on whole staging memrefs, with the triple that says so.
-/
import proofs.«105969_j84696755077155_1_alg».proof.Proof.KI.R1Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 1000000 in
/-- At a last step: the accumulator at the contents `xs0` the step before left, the output buffer at anything; the body
    ends with the output's pieces `L5` and the accumulator's `LS0` written. -/
noncomputable def kernelRun1_C (c : Dev nD) (i : grid1.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 : Vec F S512x512 .f32) (x1 : Vec F S512x512 .f32) (x2 : Vec F S512x512 .f32) (x3 : Vec F S512x512 .f32) (x4 : Vec F S1x512 .f32) (xs0 : Vec F S512x512 .f32) :
    Σ' (L5 : List (View.Piece (Elt F) S512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__gain_kernel i arg3 harg3 arg4 harg4 arg5 harg5 arg6 harg6 arg7 harg7 arg8 harg8 arg9 harg9) K } := by
  refine ⟨?_, ?_, fun E K => ?run⟩
  case run =>
    simp only [cc1__gain_kernel_eq_skeleton]; unfold cc1__gain_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Fr

end
-- ==== Proof.KI.R1Frame.lean ====
/-
  Region 1, its proof data and body obligation. The accumulator scratch is carried from grid point to grid point:
  `accAt1` says what it holds after each point (reset and the first two products at steps ≡ 0 mod 4, two more products
  added at every other step), and at the last step of each group of four the output block is what the body stores from it
  and the bias row. The region invariant after a point holds the accumulator at `accAt1` of that point.
-/
import proofs.«105969_j84696755077155_1_alg».proof.Proof.KI.R1RunA
import proofs.«105969_j84696755077155_1_alg».proof.Proof.KI.R1RunB
import proofs.«105969_j84696755077155_1_alg».proof.Proof.KI.R1RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-! ## The three cases' runs at a grid point -/

/-- The first-step run at point `t`, on the point's staging memrefs and input blocks. -/
abbrev runA1 (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _)
    ((hcond1_0 t).mpr h0) (fun h => by have := (hcond1_1 t).mp h; omega) (iblk1 V c 0 t) (iblk1 V c 1 t) (iblk1 V c 2 t) (iblk1 V c 3 t) (iblk1 V c 4 t)
/-- The middle-step run at point `t`, over the accumulator contents `xs`. -/
abbrev runB1 (c : Dev nD) (t : Fin cfg1.N) (h0 : ¬t.val % 4 = 0) (h1 : ¬t.val % 4 = 3) (xs : Vec F S512x512 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _)
    (fun h => h0 ((hcond1_0 t).mp h)) (fun h => h1 ((hcond1_1 t).mp h)) (iblk1 V c 0 t) (iblk1 V c 1 t) (iblk1 V c 2 t) (iblk1 V c 3 t) (iblk1 V c 4 t) xs
/-- The last-step run at point `t`, over the accumulator contents `xs`. -/
abbrev runC1 (c : Dev nD) (t : Fin cfg1.N) (h1 : t.val % 4 = 3) (xs : Vec F S512x512 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _)
    (fun h => by have := (hcond1_0 t).mp h; omega) ((hcond1_1 t).mpr h1) (iblk1 V c 0 t) (iblk1 V c 1 t) (iblk1 V c 2 t) (iblk1 V c 3 t) (iblk1 V c 4 t) xs

/-- Each case's accumulator pieces cover the scratch. -/
theorem scoverA1 (c : Dev nD) (t : Fin cfg1.N) (h0 : t.val % 4 = 0) (y : S512x512.Idx) :
    ∃ pc ∈ (runA1 V c t h0).2.1, y ∈ pc.1.set :=
  View.cover_of_tiledL (runA1 V c t h0).2.1 S512x512.size (by sl_kernel_rfl) y
theorem scoverB1 (c : Dev nD) (t : Fin cfg1.N) (h0 : ¬t.val % 4 = 0) (h1 : ¬t.val % 4 = 3) (xs : Vec F S512x512 .f32) (y : S512x512.Idx) :
    ∃ pc ∈ (runB1 V c t h0 h1 xs).2.1, y ∈ pc.1.set :=
  View.cover_of_tiledL (runB1 V c t h0 h1 xs).2.1 S512x512.size (by sl_kernel_rfl) y
theorem scoverC1 (c : Dev nD) (t : Fin cfg1.N) (h1 : t.val % 4 = 3) (xs : Vec F S512x512 .f32) (y : S512x512.Idx) :
    ∃ pc ∈ (runC1 V c t h1 xs).2.1, y ∈ pc.1.set :=
  View.cover_of_tiledL (runC1 V c t h1 xs).2.1 S512x512.size (by sl_kernel_rfl) y
/-- The last step's output pieces cover their block. -/
theorem cover5C1 (c : Dev nD) (t : Fin cfg1.N) (h1 : t.val % 4 = 3) (xs : Vec F S512x512 .f32) (y : S512x512.Idx) :
    ∃ pc ∈ (runC1 V c t h1 xs).1, y ∈ pc.1.set :=
  View.cover_of_tiledL (runC1 V c t h1 xs).1 S512x512.size (by sl_kernel_rfl) y

/-- What each case leaves in the accumulator: its pieces read back. -/
def soutA1 (c : Dev nD) (t : Fin cfg1.N) (h0 : t.val % 4 = 0) : Vec F S512x512 .f32 :=
  VS1_0.read (Elt F) (VS1_0.writes (Elt F) VS1_0.junk (runA1 V c t h0).2.1)
def soutB1 (c : Dev nD) (t : Fin cfg1.N) (h0 : ¬t.val % 4 = 0) (h1 : ¬t.val % 4 = 3) (xs : Vec F S512x512 .f32) : Vec F S512x512 .f32 :=
  VS1_0.read (Elt F) (VS1_0.writes (Elt F) VS1_0.junk (runB1 V c t h0 h1 xs).2.1)
def soutC1 (c : Dev nD) (t : Fin cfg1.N) (h1 : t.val % 4 = 3) (xs : Vec F S512x512 .f32) : Vec F S512x512 .f32 :=
  VS1_0.read (Elt F) (VS1_0.writes (Elt F) VS1_0.junk (runC1 V c t h1 xs).2.1)
/-- What the last step leaves in the output staging buffer. -/
def out5C1 (c : Dev nD) (t : Fin cfg1.N) (h1 : t.val % 4 = 3) (xs : Vec F S512x512 .f32) : Vec F S512x512 .f32 :=
  VO1_5.read (Elt F) (VO1_5.writes (Elt F) VO1_5.junk (runC1 V c t h1 xs).1)

/-! ## The accumulator point by point -/

/-- What the accumulator holds after the body at position `n`. -/
def accAt1 (c : Dev nD) : (n : ℕ) → n < cfg1.N → Vec F S512x512 .f32
  | 0, hn => soutA1 V c ⟨0, hn⟩ (Nat.zero_mod _)
  | n + 1, hn =>
    if h0 : (n + 1) % 4 = 0 then soutA1 V c ⟨n + 1, hn⟩ h0
    else if h1 : (n + 1) % 4 = 3 then soutC1 V c ⟨n + 1, hn⟩ h1 (accAt1 c n (Nat.lt_of_succ_lt hn))
    else soutB1 V c ⟨n + 1, hn⟩ h0 h1 (accAt1 c n (Nat.lt_of_succ_lt hn))

theorem accAt1_A (c : Dev nD) (t : Fin cfg1.N) (h0 : t.val % 4 = 0) :
    accAt1 V c t.val t.isLt = soutA1 V c t h0 := by
  obtain ⟨n, hn⟩ := t
  cases n with
  | zero => rfl
  | succ n => exact dif_pos h0
theorem accAt1_B (c : Dev nD) (t : Fin cfg1.N) (h0 : ¬t.val % 4 = 0) (h1 : ¬t.val % 4 = 3) :
    accAt1 V c t.val t.isLt = soutB1 V c t h0 h1 (accAt1 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)
theorem accAt1_C (c : Dev nD) (t : Fin cfg1.N) (h1 : t.val % 4 = 3) :
    accAt1 V c t.val t.isLt = soutC1 V c t h1 (accAt1 V c (t.val - 1) (Nat.lt_of_le_of_lt (Nat.sub_le _ _) t.isLt)) := by
  obtain ⟨n, hn⟩ := t
  cases n with
  | zero => exact (by exfalso; (try dsimp only at h1); omega)
  | succ n =>
    have h1' : (n + 1) % 4 = 3 := h1
    exact (dif_neg (by omega)).trans (dif_pos h1)

/-- What the output staging buffer holds after the body at point `t`: at a last step the stored block, computed from what
    the step before left in the accumulator; elsewhere the field is not consulted. -/
def gainAt1 (c : Dev nD) (t : Fin cfg1.N) : Vec F S512x512 .f32 :=
  if h1 : t.val % 4 = 3 then out5C1 V c t h1 (accAt1 V c (t.val - 1) (Nat.lt_of_le_of_lt (Nat.sub_le _ _) t.isLt))
  else VO1_5.read (Elt F) VO1_5.junk

/-! ## The invariant and the proof data -/

/-- The region invariant before position `n`: before the first point the class's (every scratch at anything); afterwards the
    accumulator at what the point before left, the other scoped buffers and the generator register at some state. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (accAt1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ others1 c) ∗ (∃ r, prngReg c r)) := by
  cases n with
  | zero => exact absurd rfl hz
  | succ n => rfl

/-- The proof data of region 1 on core `c`, over the contents `V` the region is entered at. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => gainAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = gainAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' staging buffers hold their blocks; the point's residue mod 4 says which case it is in;
    the invariant hands the accumulator at what the point before left (at anything before the first point) and takes it back
    at this point's contents; the idle output buffer goes back untouched, and at a last step it is stored whole. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h1 : t.val % 4 = 3
  · have h0 : ¬t.val % 4 = 0 := by omega
    have hz : t.val ≠ 0 := by omega
    rw [show (dat1 V c).leavesExact 5 t = owns (c : Thread nD τ) (ms1_5 t) fullShare ((dat1 V c).after 5 t) from by
      unfold Dat.leavesExact; rw [liveAt1_5 t ((hcond1_1 t).mpr h1)], after1_5]
    rw [accAt1_C V c t h1]
    unfold gainAt1; rw [dif_pos h1]
    unfold out5C1 soutC1; (try dsimp only)
    rw [PhiS1_castSucc V c t, PhiS1_pos V c _ _ hz]
    iintro ⟨⟨⟨HS0, Hoth⟩, Hg⟩, Ho, ⟨%d0, H0⟩, ⟨%d1, H1⟩, ⟨%d2, H2⟩, ⟨%d3, H3⟩, ⟨%d4, H4⟩, ⟨%d5, H5⟩⟩
    iapply ((runC1 V c t h1 _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scoverC1 V c t h1 _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover5C1 V c t h1 _)
  · have hc1 : ¬cond1_1 (grid1.coords t) := fun h => h1 ((hcond1_1 t).mp h)
    rw [Dat.leavesExact_idle (dat1 V c) 5 t (idleAt1_5 t hc1) (noFlush1_5 t hc1)]
    by_cases h0 : t.val % 4 = 0
    · rw [accAt1_A V c t h0]
      unfold soutA1; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((runA1 V c t h0).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA1 V c t h0)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((runA1 V c t h0).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverA1 V c t h0)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · have hz : t.val ≠ 0 := by omega
      rw [accAt1_B V c t h0 h1]
      unfold soutB1; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((runB1 V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverB1 V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

end

end Cert.KernelIdeal.Fr

end
-- ==== Proof.KI.Run.lean ====
/-
  The whole program's run: @main is two reshapes on the host (the amplitudes' unit axis dropped), then the phase region,
  then the gain region. Between two items a core holds every unscoped buffer at contents named here: the launch memory,
  then the host operations applied, then the phase region's two output arrays at what its pipeline leaves, then the gain
  region's output array at what its pipeline leaves. Each region is entered from these buffers, its arrays split off and
  put back; its invariant takes the scoped rest and the generator register and gives them back, the accumulator forgotten.
  The conclusion names every unscoped buffer of the final memory; the frame claim and the value claim read it.
-/
import proofs.«105969_j84696755077155_1_alg».proof.Proof.KI.R0Frame
import proofs.«105969_j84696755077155_1_alg».proof.Proof.KI.R1Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m (c, b)
/-- After the two host reshapes (the phase region's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the phase region: its arrays at what the pipeline leaves, every other buffer as entered (the gain region's entry). -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the gain region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## What the host reshapes write, and leave alone -/

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall]; exact ⟨by simp only [StableHlo.reshape_writes, Finset.singleton_subset_iff, List.mem_toFinset]; exact List.mem_map_of_mem (by decide), by simp only [StableHlo.reshape_writes, Finset.singleton_subset_iff, List.mem_toFinset]; exact List.mem_map_of_mem (by decide)⟩
theorem W1_of (c : Dev nD) (r : Ref sig .tc) (h : r ∉ hostOps0_W) : W1 m c r = W0 m c r :=
  StableHlo.after_of_writes_sub hostOps0 _ hostOps0_writes h

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = m ((c : Thread nD τ).loc main_arg1) := W1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 4).trans (((dat1 (V2 m) c).arrAt_in 4 rfl _).trans (A_eq1 (V2 m) c 4))
    _ = W1 m c (Proc.devRef .tc main_arg4) := W2_of_ne m c main_arg4 (by decide)
    _ = m ((c : Thread nD τ).loc main_arg4) := W1_of m c main_arg4 (by decide)

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The phase region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    have h := hin0 (V1 m) c
    unfold Pipeline.ΦA at h
    iintro ⟨Hp, -, Hr⟩
    iapply h
    isplitl [Hr]; · iexact Hr
    iexact Hp
  hout c := by
    rw [Pipeline.ownSems0_none]
    rw [show (pdats m 0 c).Φ (Fin.last _) = (dat0 (V1 m) c).Φ (Fin.last cfg0.N) from rfl]
    have h := hout0 (V1 m) c
    unfold Pipeline.ΦA at h
    iintro HPhi
    ihave HA := h $$ HPhi
    icases HA with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gain region: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    have h := hin1 (V2 m) c
    unfold Pipeline.ΦA at h
    iintro ⟨Hp, -, Hr⟩
    iapply h
    isplitl [Hr]; · iexact Hr
    iexact Hp
  hout c := by
    rw [Pipeline.ownSems0_none]
    rw [show (pdats m 1 c).Φ (Fin.last _) = (dat1 (V2 m) c).Φ (Fin.last cfg1.N) from rfl]
    have h := hout1 (V2 m) c
    unfold Pipeline.ΦA at h
    iintro HPhi
    ihave HA := h $$ HPhi
    icases HA with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and the
    final memory holds every unscoped buffer at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame claim's post, at any `F`: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.KernelIdeal.Fr

end
-- ==== Proof.KI.R0Pieces.lean ====
/-
  Region 0: what each control case's stores read back to, as the payloads of the point's blocks, for any float
  values. A first step leaves in the accumulator the zero block plus the product of the point's x and coefficient
  blocks; a middle or last step leaves what the accumulator held plus that product; a last step stores the cosine
  and the sine of the accumulator it has just updated.
-/
import proofs.«105969_j84696755077155_1_alg».proof.Proof.KI.R0Frame
import Idealize.ShloMosaic.Lib.Pipeline.Value
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.Sem
open Idealize.ShloMosaic.Pipeline (Dat Cfg Window)
open Cert.KernelIdeal.Gen

variable {F : FTy → Type} [FloatOps F]

section
variable (V : (c : Dev nD) → (b : Ref sig .tc) → Buf (Elt F) ((c : Thread nD τ).loc b))

theorem hz0 : (![0, 0] : Fin 2 → Nat) = fun _ => 0 := funext fun a => by fin_cases a <;> rfl

/-- A first step: the reset's zero block, read back, plus the blocks' product. -/
theorem soutA0_eq (c : Dev nD) (t : Fin cfg0.N) (h0 : t.val % 4 = 0) :
    soutA0 V c t h0 = k0_pay2 (iblk0 V c 0 t) (iblk0 V c 1 t) (k0_pay1 (F := F)) := by
  unfold soutA0
  rw [View.read_writes_eq_canon _ _ _ (scoverA0 V c t h0)]
  unfold runA0 kernelRun0_A
  dsimp only
  sl_unfold_words
  rw [View.canon_cons_unit_zero (S := S512x512) hz0]
  simp only [View.readAt_eq_ld, (hs0_0 t).read_unread, (hs0_1 t).read_unread, View.ld_unit_zero (S := S512x512) hz0,
    View.readCov_unit_zero (S := S512x512) _ hz0]

/-- A middle step: what the accumulator held plus the blocks' product. -/
theorem soutB0_eq (c : Dev nD) (t : Fin cfg0.N) (h0 : ¬t.val % 4 = 0) (h1 : ¬t.val % 4 = 3) (xs : Vec F S512x512 .f32) :
    soutB0 V c t h0 h1 xs = k0_pay2 (iblk0 V c 0 t) (iblk0 V c 1 t) xs := by
  unfold soutB0
  rw [View.read_writes_eq_canon _ _ _ (scoverB0 V c t h0 h1 xs)]
  unfold runB0 kernelRun0_B
  dsimp only
  sl_unfold_words
  rw [View.canon_unit_zero hz0]
  simp only [View.readAt_eq_ld, (hs0_0 t).read_unread, (hs0_1 t).read_unread, (Memref.isWhole_whole cc0_scratch0).read_unread,
    View.ld_unit_zero (S := S512x512) hz0]

/-- A last step: the same update of the accumulator. -/
theorem soutC0_eq (c : Dev nD) (t : Fin cfg0.N) (h1 : t.val % 4 = 3) (xs : Vec F S512x512 .f32) :
    soutC0 V c t h1 xs = k0_pay2 (iblk0 V c 0 t) (iblk0 V c 1 t) xs := by
  unfold soutC0
  rw [View.read_writes_eq_canon _ _ _ (scoverC0 V c t h1 xs)]
  unfold runC0 kernelRun0_C
  dsimp only
  sl_unfold_words
  rw [View.canon_unit_zero hz0]
  simp only [View.readAt_eq_ld, (hs0_0 t).read_unread, (hs0_1 t).read_unread, (Memref.isWhole_whole cc0_scratch0).read_unread,
    View.ld_unit_zero (S := S512x512) hz0]

/-- A last step's cosine block: the cosine of the updated accumulator. -/
theorem out2C0_eq (c : Dev nD) (t : Fin cfg0.N) (h1 : t.val % 4 = 3) (xs : Vec F S512x512 .f32) :
    out2C0 V c t h1 xs = k0_pay3 (k0_pay2 (iblk0 V c 0 t) (iblk0 V c 1 t) xs) := by
  unfold out2C0
  rw [View.read_writes_eq_canon _ _ _ (cover2C0 V c t h1 xs)]
  unfold runC0 kernelRun0_C
  dsimp only
  sl_unfold_words
  rw [View.canon_unit_zero hz0]
  simp only [View.readAt_eq_ld, (hs0_0 t).read_unread, (hs0_1 t).read_unread, (Memref.isWhole_whole cc0_scratch0).read_unread,
    View.ld_unit_zero (S := S512x512) hz0, View.readCov_unit_zero (S := S512x512) _ hz0]

/-- A last step's sine block: the sine of the updated accumulator. -/
theorem out3C0_eq (c : Dev nD) (t : Fin cfg0.N) (h1 : t.val % 4 = 3) (xs : Vec F S512x512 .f32) :
    out3C0 V c t h1 xs = k0_pay4 (k0_pay2 (iblk0 V c 0 t) (iblk0 V c 1 t) xs) := by
  unfold out3C0
  rw [View.read_writes_eq_canon _ _ _ (cover3C0 V c t h1 xs)]
  unfold runC0 kernelRun0_C
  dsimp only
  sl_unfold_words
  rw [View.canon_unit_zero hz0]
  simp only [View.readAt_eq_ld, (hs0_0 t).read_unread, (hs0_1 t).read_unread, (Memref.isWhole_whole cc0_scratch0).read_unread,
    View.ld_unit_zero (S := S512x512) hz0, View.readCov_unit_zero (S := S512x512) _ hz0]

end

end Cert.KernelIdeal.Fr

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.KI.R0Pay.lean ====
/-
  Region 0's payloads read at an entry (p, q) of a 512×512 block, on the extended reals. The reset's block is zero;
  an update is the accumulator's entry plus the sum over the 512 shared positions of the x block's row p against the
  coefficient block's column q (the cast of the operands to the narrower format keeps their values, the cast of a
  shape to itself is the identity, and a product into the zero block is the plain sum); the stored cosine and sine
  blocks are the cosine and the sine of the entry.
-/
import proofs.«105969_j84696755077155_1_alg».proof.Proof.Gen.KernelIdeal.Skeleton
import proofs.«105969_j84696755077155_1_alg».proof.Proof.LibPlainDot
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Fr

open Idealize.ShloMosaic Idealize.ShloMosaic.ValueIdx
open Cert.KernelIdeal.Gen

/-- The kernel's product contracts the left operand's axis 1 with the right operand's axis 0, nothing else. -/
theorem dot0_plain : PlainDot.IsPlain (R := 512) (K := 512) (C := 512) dot_S512x512_S512x512_S512x512_1_0_0_1_n_n :=
  ⟨rfl, rfl, rfl, rfl, rfl, rfl⟩

/-- The reset's block is zero everywhere. -/
theorem pay1_apply (p q : Fin 512) : (k0_pay1 (F := Ideal)) (ix2 p q) = 0 := by
  unfold k0_pay1
  refine (congrFun (shapeCast_self _ _) (ix2 p q)).trans ?_
  exact Ideal.ofBits_zero_f32

/-- An update at (p, q): the accumulator's entry plus row p of the x block against column q of the coefficient block. -/
theorem pay2_apply (x0 x1 xs : Vec Ideal S512x512 .f32) (p q : Fin 512) :
    k0_pay2 x0 x1 xs (ix2 p q) = xs (ix2 p q) + ∑ kk : Fin 512, x0 (ix2 p kk) * x1 (ix2 kk q) := by
  unfold k0_pay2
  refine (congrFun (shapeCast_self _ _) (ix2 p q)).trans ?_
  refine (addf_apply _ _ (ix2 p q)).trans ?_
  refine congrArg (xs (ix2 p q) + ·) ?_
  exact PlainDot.matmul_zero_apply dot0_plain none _ _ p q

/-- The stored cosine block at (p, q). -/
theorem pay3_apply (v : Vec Ideal S512x512 .f32) (p q : Fin 512) : k0_pay3 v (ix2 p q) = Ideal.cos (v (ix2 p q)) := rfl

/-- The stored sine block at (p, q). -/
theorem pay4_apply (v : Vec Ideal S512x512 .f32) (p q : Fin 512) : k0_pay4 v (ix2 p q) = Ideal.sin (v (ix2 p q)) := rfl

end Cert.KernelIdeal.Fr

end
-- ==== Proof.KI.R0Blocks.lean ====
/-
  Region 0: where each window's block sits in its array. Grid point t stands for the triple (i, j, k) = (t / 16,
  (t / 4) mod 4, t mod 4) of the row-block, the column-block and the step of the contracted axis. The x window
  holds block (i, k) of x, the coefficient window block (k, j) of the coefficients, the two output windows block
  (i, j) of their arrays; entry (p, q) of a block sits at (512 · block row + p, 512 · block column + q).
-/
import proofs.«105969_j84696755077155_1_alg».proof.Proof.KI.R0Shared
import Idealize.ShloMosaic.Lib.ValueIdx
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.Sem
open Idealize.ShloMosaic.Pipeline (Dat Cfg Window)
open Cert.KernelIdeal.Gen

variable {F : FTy → Type} [FloatOps F]

open Idealize.ShloMosaic.ValueIdx

/-- The four index maps over the grid, decided point by point. -/
theorem idx0_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

section
variable (V : (c : Dev nD) → (b : Ref sig .tc) → Buf (Elt F) ((c : Thread nD τ).loc b))

/-- The blocks and the arrays at their literal types. -/
abbrev xblk0 (c : Dev nD) (t : Fin cfg0.N) : Vec F S512x512 .f32 := iblk0 V c 0 t
abbrev wblk0 (c : Dev nD) (t : Fin cfg0.N) : Vec F S512x512 .f32 := iblk0 V c 1 t
abbrev xarr0 (c : Dev nD) : Vec F S4096x2048 .f32 := V c main_arg0
abbrev warr0 (c : Dev nD) : Vec F S2048x2048 .f32 := V c main_arg1

/-- Entry (p, kk) of the x block at point t is x at (512 · (t / 16) + p, 512 · (t mod 4) + kk). -/
theorem xblk0_apply (c : Dev nD) (t : Fin cfg0.N) (p kk : Fin 512) (b : Fin 4096) (k : Fin 2048)
    (hb : b.val = 512 * (t.val / 16) + p.val) (hk : k.val = 512 * (t.val % 4) + kk.val) :
    xblk0 V c t (ix2 p kk) = xarr0 V c (ix2 b k) := by
  obtain ⟨e0, e1, -⟩ := idx0_facts t
  unfold xblk0 xarr0 iblk0
  rw [View.read_apply]
  show V c main_arg0 _ = V c main_arg0 _
  congr 1
  funext a
  apply Fin.ext
  match a with
  | ⟨0, _⟩ => show win0_0.index t (0 : Fin 2) * 512 + 1 * p.val = b.val; rw [e0, hb]; omega
  | ⟨1, _⟩ => show win0_0.index t (1 : Fin 2) * 512 + 1 * kk.val = k.val; rw [e1, hk]; omega

/-- Entry (kk, q) of the coefficient block at point t is the coefficient at (512 · (t mod 4) + kk, 512 · ((t / 4) mod 4) + q). -/
theorem wblk0_apply (c : Dev nD) (t : Fin cfg0.N) (kk q : Fin 512) (k h : Fin 2048)
    (hk : k.val = 512 * (t.val % 4) + kk.val) (hh : h.val = 512 * (t.val / 4 % 4) + q.val) :
    wblk0 V c t (ix2 kk q) = warr0 V c (ix2 k h) := by
  obtain ⟨-, -, e0, e1, -⟩ := idx0_facts t
  unfold wblk0 warr0 iblk0
  rw [View.read_apply]
  show V c main_arg1 _ = V c main_arg1 _
  congr 1
  funext a
  apply Fin.ext
  match a with
  | ⟨0, _⟩ => show win0_1.index t (0 : Fin 2) * 512 + 1 * kk.val = k.val; rw [e0, hk]; omega
  | ⟨1, _⟩ => show win0_1.index t (1 : Fin 2) * 512 + 1 * q.val = h.val; rw [e1, hh]; omega

end

end Cert.KernelIdeal.Fr

end
-- ==== Proof.KI.BlockSum.lean ====
/-
  A sum over an axis of 2048 entries, cut into four consecutive blocks of 512: the sum of the four block sums is the
  whole sum. Addition on the extended reals is commutative and associative, so no finiteness is asked of the terms.
-/
import Mathlib.Data.Fintype.BigOperators
import Mathlib.Algebra.BigOperators.Group.Finset.Basic
import Idealize.ShloMosaic.PureOps.Ideal

set_option maxRecDepth 16384

open scoped BigOperators

namespace Cert.Fourier

/-- The four block sums of 512 consecutive terms add up to the sum of all 2048 terms. -/
theorem sum_blocks (f : ℕ → EReal) :
    ∑ kb ∈ Finset.range 4, ∑ kk : Fin 512, f (512 * kb + kk.val) = ∑ k : Fin 2048, f k.val := by
  have hb : ∀ kb : ℕ, ∑ kk : Fin 512, f (512 * kb + kk.val) = ∑ kk ∈ Finset.range 512, f (512 * kb + kk) :=
    fun kb => Fin.sum_univ_eq_sum_range (fun kk => f (512 * kb + kk)) 512
  have e4 : ∀ g : ℕ → EReal, ∑ kb ∈ Finset.range 4, g kb = g 0 + g 1 + g 2 + g 3 := fun g => by
    rw [Finset.sum_range_succ, Finset.sum_range_succ, Finset.sum_range_succ, Finset.sum_range_succ,
      Finset.sum_range_zero, zero_add]
  rw [e4, hb, hb, hb, hb, Fin.sum_univ_eq_sum_range f 2048,
    show (2048 : ℕ) = 512 + 512 + 512 + 512 from rfl,
    Finset.sum_range_add, Finset.sum_range_add, Finset.sum_range_add]
  refine congrArg₂ (· + ·) (congrArg₂ (· + ·) (congrArg₂ (· + ·) ?_ ?_) ?_) ?_ <;>
    exact Finset.sum_congr rfl (fun x _ => congrArg f (by omega))

end Cert.Fourier
-- ==== Proof.KI.Spec.lean ====
/-
  What the two programs compute, as functions of the five argument arrays over the extended reals.
  With x : [4096, 2048], w : [2048, 2048] (the coefficients), an, bn : [2048, 2048] (the amplitudes, their unit
  leading axis dropped), bias : [1, 2048]:
    phase b h = ∑ k, x[b, k] · w[k, h]
    gain b i  = (∑ h, cos (phase b h) · an[i, h] + ∑ h, sin (phase b h) · bn[i, h]) + 2048 · bias[0, i].
  The second stage is stated for any cosine and sine arrays, so that it can be read before the first is known.
-/
import Idealize.ShloMosaic.PureOps.Ideal
import Idealize.ShloMosaic.PureOps.Ideal.Laws
import Idealize.ShloMosaic.Lib.ValueIdx

noncomputable section

open scoped BigOperators

namespace Cert.Fourier

open Idealize.ShloMosaic Idealize.ShloMosaic.ValueIdx

/-- The shapes, as literals (each program's own names for them unfold to these). -/
abbrev SBH : Shape := ⟨2, ![4096, 2048]⟩
abbrev SHH : Shape := ⟨2, ![2048, 2048]⟩
abbrev S1H : Shape := ⟨2, ![1, 2048]⟩
abbrev S1HH : Shape := ⟨3, ![1, 2048, 2048]⟩

/-- The phase of sample `b` at harmonic `h`: row `b` of x against column `h` of the coefficients. -/
def phase (x : FVec Ideal SBH .f32) (w : FVec Ideal SHH .f32) (b : Fin 4096) (h : Fin 2048) : EReal :=
  ∑ k : Fin 2048, x (ix2 b k) * w (ix2 k h)

/-- The cosine and the sine of the phases, as arrays. -/
def cosArr (x : FVec Ideal SBH .f32) (w : FVec Ideal SHH .f32) : FVec Ideal SBH .f32 :=
  fun j => Ideal.cos (phase x w (j 0) (j 1))
def sinArr (x : FVec Ideal SBH .f32) (w : FVec Ideal SHH .f32) : FVec Ideal SBH .f32 :=
  fun j => Ideal.sin (phase x w (j 0) (j 1))

/-- The second stage at one entry, for any cosine and sine arrays `cs`, `sn`: the two amplitude sums over the harmonics,
    then the bias counted once per harmonic (2048 of them; `0x45000000` is the float 2048). -/
def gainAt (cs sn : FVec Ideal SBH .f32) (an bn : FVec Ideal SHH .f32) (bias : FVec Ideal S1H .f32) (b : Fin 4096) (i : Fin 2048) : EReal :=
  (∑ h : Fin 2048, cs (ix2 b h) * an (ix2 i h) + ∑ h : Fin 2048, sn (ix2 b h) * bn (ix2 i h))
    + Ideal.ofBits .f32 0x45000000#32 * bias (ix2 (0 : Fin 1) i)
def gain (cs sn : FVec Ideal SBH .f32) (an bn : FVec Ideal SHH .f32) (bias : FVec Ideal S1H .f32) : FVec Ideal SBH .f32 :=
  fun j => gainAt cs sn an bn bias (j 0) (j 1)

/-- The amplitudes with their unit leading axis dropped. -/
def dropUnit (a : FVec Ideal S1HH .f32) : FVec Ideal SHH .f32 := fun j => a (ix3 (0 : Fin 1) (j 0) (j 1))

/-- The whole computation. -/
def G (x : FVec Ideal SBH .f32) (w : FVec Ideal SHH .f32) (an3 bn3 : FVec Ideal S1HH .f32) (bias : FVec Ideal S1H .f32) : FVec Ideal SBH .f32 :=
  gain (cosArr x w) (sinArr x w) (dropUnit an3) (dropUnit bn3) bias

end Cert.Fourier

end
-- ==== Proof.KI.R0Inv.lean ====
/-
  Region 0 on the extended reals: the accumulator after each grid point, entry by entry. With t standing for
  (i, j, k) = (t / 16, (t / 4) mod 4, t mod 4), after point t the accumulator's entry (p, q) is the sum, over the
  blocks 0 .. k of the contracted axis and the 512 positions of each, of x[512 i + p, ·] · coefficient[·, 512 j + q]:
  the reset's zero plus the first block's sum at a first step, one more block's sum added at every later step
  (addition on the extended reals is commutative and associative, so nothing is asked of the terms). After a last
  step the four blocks are the whole contracted axis, so the entry is the phase, and the stored blocks are its
  cosine and sine.
-/
import proofs.«105969_j84696755077155_1_alg».proof.Proof.KI.R0Pieces
import proofs.«105969_j84696755077155_1_alg».proof.Proof.KI.R0Pay
import proofs.«105969_j84696755077155_1_alg».proof.Proof.KI.R0Blocks
import proofs.«105969_j84696755077155_1_alg».proof.Proof.KI.BlockSum
import proofs.«105969_j84696755077155_1_alg».proof.Proof.KI.Spec

set_option maxRecDepth 16384

noncomputable section

open scoped BigOperators

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal.Gen

/-- One product of the contraction, its row, column and position given as naturals (zero outside the arrays). -/
def term0 (x : FVec Ideal Cert.Fourier.SBH .f32) (w : FVec Ideal Cert.Fourier.SHH .f32) (r s k : ℕ) : EReal :=
  if h : r < 4096 ∧ s < 2048 ∧ k < 2048 then x (ix2 ⟨r, h.1⟩ ⟨k, h.2.2⟩) * w (ix2 ⟨k, h.2.2⟩ ⟨s, h.2.1⟩) else 0

/-- The phase is the sum of those products over the whole contracted axis. -/
theorem phase_eq_sum (x : FVec Ideal Cert.Fourier.SBH .f32) (w : FVec Ideal Cert.Fourier.SHH .f32) (b : Fin 4096) (h : Fin 2048) :
    Cert.Fourier.phase x w b h = ∑ k : Fin 2048, term0 x w b.val h.val k.val := by
  unfold Cert.Fourier.phase
  refine Finset.sum_congr rfl fun k _ => ?_
  unfold term0
  rw [dif_pos ⟨b.isLt, h.isLt, k.isLt⟩]

section
variable (V : (c : Dev nD) → (b : Ref sig .tc) → Buf (Elt Ideal) ((c : Thread nD τ).loc b))

/-- The blocks' product at point t, entry (p, q): block t mod 4 of the contraction. -/
theorem step_sum (c : Dev nD) (t : Fin cfg0.N) (p q : Fin 512) :
    ∑ kk : Fin 512, xblk0 V c t (ix2 p kk) * wblk0 V c t (ix2 kk q)
      = ∑ kk : Fin 512, term0 (xarr0 V c) (warr0 V c) (512 * (t.val / 16) + p.val) (512 * (t.val / 4 % 4) + q.val)
          (512 * (t.val % 4) + kk.val) := by
  have hN : t.val < 128 := lt_of_lt_of_eq t.isLt N_0
  refine Finset.sum_congr rfl fun kk _ => ?_
  have hp := p.isLt
  have hq := q.isLt
  have hkk := kk.isLt
  have hr : 512 * (t.val / 16) + p.val < 4096 := by omega
  have hs : 512 * (t.val / 4 % 4) + q.val < 2048 := by omega
  have hk : 512 * (t.val % 4) + kk.val < 2048 := by omega
  unfold term0
  rw [dif_pos ⟨hr, hs, hk⟩]
  rw [xblk0_apply V c t p kk ⟨512 * (t.val / 16) + p.val, hr⟩ ⟨512 * (t.val % 4) + kk.val, hk⟩ rfl rfl,
    wblk0_apply V c t kk q ⟨512 * (t.val % 4) + kk.val, hk⟩ ⟨512 * (t.val / 4 % 4) + q.val, hs⟩ rfl rfl]

/-- What the accumulator's entry (p, q) holds after position n: the blocks 0 .. n mod 4 of the contraction. -/
def accSum (c : Dev nD) (n : ℕ) (p q : Fin 512) : EReal :=
  ∑ kb ∈ Finset.range (n % 4 + 1), ∑ kk : Fin 512,
    term0 (xarr0 V c) (warr0 V c) (512 * (n / 16) + p.val) (512 * (n / 4 % 4) + q.val) (512 * kb + kk.val)

/-- One point: the accumulator's entry after point t, given its entry after the point before when t is not a first step. -/
theorem acc0_step (c : Dev nD) (t : Fin cfg0.N) (p q : Fin 512) (hlt : t.val - 1 < cfg0.N)
    (ih : ¬t.val % 4 = 0 → accAt0 V c (t.val - 1) hlt (ix2 p q) = accSum V c (t.val - 1) p q) :
    accAt0 V c t.val t.isLt (ix2 p q) = accSum V c t.val p q := by
  have hN : t.val < 128 := lt_of_lt_of_eq t.isLt N_0
  by_cases h0 : t.val % 4 = 0
  · refine (congrFun (accAt0_A V c t h0) (ix2 p q)).trans ?_
    refine (congrFun (soutA0_eq V c t h0) (ix2 p q)).trans ?_
    refine (pay2_apply (xblk0 V c t) (wblk0 V c t) (k0_pay1 (F := Ideal)) p q).trans ?_
    rw [pay1_apply, zero_add, step_sum V c t p q]
    unfold accSum
    rw [h0, Finset.sum_range_succ, Finset.sum_range_zero, zero_add]
  · have e1 : (t.val - 1) / 16 = t.val / 16 := by omega
    have e2 : (t.val - 1) / 4 % 4 = t.val / 4 % 4 := by omega
    have e3 : (t.val - 1) % 4 + 1 = t.val % 4 := by omega
    by_cases h1 : t.val % 4 = 3
    · refine (congrFun (accAt0_C V c t h1) (ix2 p q)).trans ?_
      refine (congrFun (soutC0_eq V c t h1 (accAt0 V c (t.val - 1) hlt)) (ix2 p q)).trans ?_
      refine (pay2_apply (xblk0 V c t) (wblk0 V c t) (accAt0 V c (t.val - 1) hlt) p q).trans ?_
      rw [ih h0, step_sum V c t p q]
      unfold accSum
      rw [e1, e2, e3, Finset.sum_range_succ]
    · refine (congrFun (accAt0_B V c t h0 h1) (ix2 p q)).trans ?_
      refine (congrFun (soutB0_eq V c t h0 h1 (accAt0 V c (t.val - 1) hlt)) (ix2 p q)).trans ?_
      refine (pay2_apply (xblk0 V c t) (wblk0 V c t) (accAt0 V c (t.val - 1) hlt) p q).trans ?_
      rw [ih h0, step_sum V c t p q]
      unfold accSum
      rw [e1, e2, e3, Finset.sum_range_succ]

/-- The invariant, by induction on the position. -/
theorem acc0_inv (c : Dev nD) (p q : Fin 512) : ∀ (n : ℕ) (hn : n < cfg0.N), accAt0 V c n hn (ix2 p q) = accSum V c n p q
  | 0, hn => acc0_step V c ⟨0, hn⟩ p q hn (fun h => absurd (Nat.zero_mod 4) h)
  | n + 1, hn => acc0_step V c ⟨n + 1, hn⟩ p q (Nat.lt_of_succ_lt hn) (fun _ => acc0_inv c p q n (Nat.lt_of_succ_lt hn))

/-- After a last step the accumulator's entry (p, q) is the phase of its row and column. -/
theorem acc0_last (c : Dev nD) (t : Fin cfg0.N) (h1 : t.val % 4 = 3) (p q : Fin 512) (b : Fin 4096) (h : Fin 2048)
    (hb : b.val = 512 * (t.val / 16) + p.val) (hh : h.val = 512 * (t.val / 4 % 4) + q.val) :
    accAt0 V c t.val t.isLt (ix2 p q) = Cert.Fourier.phase (xarr0 V c) (warr0 V c) b h := by
  rw [acc0_inv V c p q t.val t.isLt, phase_eq_sum, hb, hh]
  unfold accSum
  rw [h1]
  exact Cert.Fourier.sum_blocks _

/-- The cosine block stored at a last step, entry by entry. -/
theorem cosAt0_apply (c : Dev nD) (t : Fin cfg0.N) (h1 : t.val % 4 = 3) (p q : Fin 512) (b : Fin 4096) (h : Fin 2048)
    (hb : b.val = 512 * (t.val / 16) + p.val) (hh : h.val = 512 * (t.val / 4 % 4) + q.val) :
    cosAt0 V c t (ix2 p q) = Ideal.cos (Cert.Fourier.phase (xarr0 V c) (warr0 V c) b h) := by
  have hlt : t.val - 1 < cfg0.N := Nat.lt_of_le_of_lt (Nat.sub_le _ _) t.isLt
  unfold cosAt0
  rw [dif_pos h1]
  refine (congrFun (out2C0_eq V c t h1 (accAt0 V c (t.val - 1) hlt)) (ix2 p q)).trans ?_
  refine (pay3_apply (k0_pay2 (xblk0 V c t) (wblk0 V c t) (accAt0 V c (t.val - 1) hlt)) p q).trans ?_
  refine congrArg Ideal.cos ?_
  refine (congrFun (soutC0_eq V c t h1 (accAt0 V c (t.val - 1) hlt)) (ix2 p q)).symm.trans ?_
  refine (congrFun (accAt0_C V c t h1) (ix2 p q)).symm.trans ?_
  exact acc0_last V c t h1 p q b h hb hh

/-- The sine block stored at a last step, entry by entry. -/
theorem sinAt0_apply (c : Dev nD) (t : Fin cfg0.N) (h1 : t.val % 4 = 3) (p q : Fin 512) (b : Fin 4096) (h : Fin 2048)
    (hb : b.val = 512 * (t.val / 16) + p.val) (hh : h.val = 512 * (t.val / 4 % 4) + q.val) :
    sinAt0 V c t (ix2 p q) = Ideal.sin (Cert.Fourier.phase (xarr0 V c) (warr0 V c) b h) := by
  have hlt : t.val - 1 < cfg0.N := Nat.lt_of_le_of_lt (Nat.sub_le _ _) t.isLt
  unfold sinAt0
  rw [dif_pos h1]
  refine (congrFun (out3C0_eq V c t h1 (accAt0 V c (t.val - 1) hlt)) (ix2 p q)).trans ?_
  refine (pay4_apply (k0_pay2 (xblk0 V c t) (wblk0 V c t) (accAt0 V c (t.val - 1) hlt)) p q).trans ?_
  refine congrArg Ideal.sin ?_
  refine (congrFun (soutC0_eq V c t h1 (accAt0 V c (t.val - 1) hlt)) (ix2 p q)).symm.trans ?_
  refine (congrFun (accAt0_C V c t h1) (ix2 p q)).symm.trans ?_
  exact acc0_last V c t h1 p q b h hb hh

end

end Cert.KernelIdeal.Fr

end
-- ==== Proof.KI.R0Value.lean ====
/-
  Region 0 on the extended reals: its two result arrays. Each group of four grid points (one row block i, one column
  block j, the four steps of the contracted axis) ends with a point that stores block (i, j) of the cosine and of the
  sine array; the entry (p, q) of that block is the cosine (the sine) of the phase of row 512 i + p and column
  512 j + q, which is what the whole-array functions read at that place; and the 32 last points' blocks cover the
  arrays, the one that holds (r, s) being the last point of the group (r / 512, s / 512).
-/
import proofs.«105969_j84696755077155_1_alg».proof.Proof.KI.R0Inv
import Idealize.ShloMosaic.Lib.Pipeline.Value

set_option maxRecDepth 16384

noncomputable section

open scoped BigOperators

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal.Gen

section
variable (V : (c : Dev nD) → (b : Ref sig .tc) → Buf (Elt Ideal) ((c : Thread nD τ).loc b))

/-- An index of the cosine array is in point t's block iff each coordinate is in the block's range on its axis. -/
theorem mem_blk0_2 (t : Fin cfg0.N) (i : S4096x2048.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v2_0).slice (win0_2.rect t)).set ↔ _
  rw [View.set_slice_whole, Rect.mem_set_unit]
  exact Iff.rfl

/-- The same for the sine array. -/
theorem mem_blk0_3 (t : Fin cfg0.N) (i : S4096x2048.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v2_1).slice (win0_3.rect t)).set ↔ _
  rw [View.set_slice_whole, Rect.mem_set_unit]
  exact Iff.rfl

/-- The last point of the group that holds entry (r, s): row block r / 512, column block s / 512, step 3. -/
def lastOf (i : S4096x2048.Idx) : Fin cfg0.N :=
  ⟨16 * ((i 0).val / 512) + 4 * ((i 1).val / 512) + 3, by
    have h0 : (i 0).val < 4096 := (i 0).isLt
    have h1 : (i 1).val < 2048 := (i 1).isLt
    exact lt_of_lt_of_eq (by omega : 16 * ((i 0).val / 512) + 4 * ((i 1).val / 512) + 3 < 128) N_0.symm⟩

theorem lastOf_val (i : S4096x2048.Idx) : (lastOf i).val = 16 * ((i 0).val / 512) + 4 * ((i 1).val / 512) + 3 := rfl

/-- The write-backs of the cosine window cover its array. -/
theorem cover0_2 (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hv := lastOf_val i
  obtain ⟨-, -, -, -, e0, e1, -⟩ := idx0_facts (lastOf i)
  refine ⟨lastOf i, (flush0_2 (lastOf i)).mpr (by omega), ?_⟩
  rw [mem_blk0_2]
  intro a
  match a with
  | ⟨0, _⟩ => show win0_2.index (lastOf i) (0 : Fin 2) * 512 ≤ (i 0).val ∧ (i 0).val < win0_2.index (lastOf i) (0 : Fin 2) * 512 + 512
              rw [e0]; omega
  | ⟨1, _⟩ => show win0_2.index (lastOf i) (1 : Fin 2) * 512 ≤ (i 1).val ∧ (i 1).val < win0_2.index (lastOf i) (1 : Fin 2) * 512 + 512
              rw [e1]; omega

/-- The write-backs of the sine window cover its array. -/
theorem cover0_3 (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hv := lastOf_val i
  obtain ⟨-, -, -, -, -, -, e0, e1⟩ := idx0_facts (lastOf i)
  refine ⟨lastOf i, (flush0_3 (lastOf i)).mpr (by omega), ?_⟩
  rw [mem_blk0_3]
  intro a
  match a with
  | ⟨0, _⟩ => show win0_3.index (lastOf i) (0 : Fin 2) * 512 ≤ (i 0).val ∧ (i 0).val < win0_3.index (lastOf i) (0 : Fin 2) * 512 + 512
              rw [e0]; omega
  | ⟨1, _⟩ => show win0_3.index (lastOf i) (1 : Fin 2) * 512 ≤ (i 1).val ∧ (i 1).val < win0_3.index (lastOf i) (1 : Fin 2) * 512 + 512
              rw [e1]; omega

/-- What a last point writes back into the cosine array is its block of the cosines of the phases. -/
theorem flushed0_cos (c : Dev nD) (t : Fin cfg0.N) (hf : (cfg0.win 2).flush t = true) :
    (dat0 (F := Ideal) V c).flushed 2 t
      = ((cfg0.win 2).blk t).view.read (Elt Ideal) (Cert.Fourier.cosArr (V c main_arg0) (V c main_arg1)) := by
  have h1 : t.val % 4 = 3 := (flush0_2 t).mp hf
  obtain ⟨-, -, -, -, e0, e1, -⟩ := idx0_facts t
  show (cfg0.win 2).cut (grid0.coords t) ((dat0 (F := Ideal) V c).after 2 t) = _
  rw [after0_2]
  funext j
  have hp : (j 0).val < 512 := Nat.lt_of_lt_of_le (j 0).isLt ((cfg0.win 2).xsize_le (grid0.coords t) 0)
  have hq : (j 1).val < 512 := Nat.lt_of_lt_of_le (j 1).isLt ((cfg0.win 2).xsize_le (grid0.coords t) 1)
  have ej : (cfg0.win 2).xinj (grid0.coords t) j = ix2 (⟨(j 0).val, hp⟩ : Fin 512) (⟨(j 1).val, hq⟩ : Fin 512) :=
    funext fun a => by match a with | ⟨0, _⟩ => rfl | ⟨1, _⟩ => rfl
  show cosAt0 V c t ((cfg0.win 2).xinj (grid0.coords t) j)
    = Cert.Fourier.cosArr (V c main_arg0) (V c main_arg1) (((cfg0.win 2).blk t).view.emb j)
  refine (congrArg (cosAt0 V c t) ej).trans ?_
  refine cosAt0_apply V c t h1 ⟨(j 0).val, hp⟩ ⟨(j 1).val, hq⟩ _ _ ?_ ?_
  · show win0_2.index t (0 : Fin 2) * 512 + 1 * (j 0).val = 512 * (t.val / 16) + (j 0).val
    rw [e0]; omega
  · show win0_2.index t (1 : Fin 2) * 512 + 1 * (j 1).val = 512 * (t.val / 4 % 4) + (j 1).val
    rw [e1]; omega

/-- What a last point writes back into the sine array is its block of the sines of the phases. -/
theorem flushed0_sin (c : Dev nD) (t : Fin cfg0.N) (hf : (cfg0.win 3).flush t = true) :
    (dat0 (F := Ideal) V c).flushed 3 t
      = ((cfg0.win 3).blk t).view.read (Elt Ideal) (Cert.Fourier.sinArr (V c main_arg0) (V c main_arg1)) := by
  have h1 : t.val % 4 = 3 := (flush0_3 t).mp hf
  obtain ⟨-, -, -, -, -, -, e0, e1⟩ := idx0_facts t
  show (cfg0.win 3).cut (grid0.coords t) ((dat0 (F := Ideal) V c).after 3 t) = _
  rw [after0_3]
  funext j
  have hp : (j 0).val < 512 := Nat.lt_of_lt_of_le (j 0).isLt ((cfg0.win 3).xsize_le (grid0.coords t) 0)
  have hq : (j 1).val < 512 := Nat.lt_of_lt_of_le (j 1).isLt ((cfg0.win 3).xsize_le (grid0.coords t) 1)
  have ej : (cfg0.win 3).xinj (grid0.coords t) j = ix2 (⟨(j 0).val, hp⟩ : Fin 512) (⟨(j 1).val, hq⟩ : Fin 512) :=
    funext fun a => by match a with | ⟨0, _⟩ => rfl | ⟨1, _⟩ => rfl
  show sinAt0 V c t ((cfg0.win 3).xinj (grid0.coords t) j)
    = Cert.Fourier.sinArr (V c main_arg0) (V c main_arg1) (((cfg0.win 3).blk t).view.emb j)
  refine (congrArg (sinAt0 V c t) ej).trans ?_
  refine sinAt0_apply V c t h1 ⟨(j 0).val, hp⟩ ⟨(j 1).val, hq⟩ _ _ ?_ ?_
  · show win0_3.index t (0 : Fin 2) * 512 + 1 * (j 0).val = 512 * (t.val / 16) + (j 0).val
    rw [e0]; omega
  · show win0_3.index t (1 : Fin 2) * 512 + 1 * (j 1).val = 512 * (t.val / 4 % 4) + (j 1).val
    rw [e1]; omega

/-- After the region the cosine array holds the cosines of the phases. -/
theorem final0_cos (c : Dev nD) :
    (dat0 (F := Ideal) V c).arrAt 2 cfg0.N = Cert.Fourier.cosArr (V c main_arg0) (V c main_arg1) :=
  (dat0 (F := Ideal) V c).arrAt_eq_of_cover 2 (Cert.Fourier.cosArr (V c main_arg0) (V c main_arg1))
    (fun t hf => flushed0_cos V c t hf) cover0_2

/-- After the region the sine array holds the sines of the phases. -/
theorem final0_sin (c : Dev nD) :
    (dat0 (F := Ideal) V c).arrAt 3 cfg0.N = Cert.Fourier.sinArr (V c main_arg0) (V c main_arg1) :=
  (dat0 (F := Ideal) V c).arrAt_eq_of_cover 3 (Cert.Fourier.sinArr (V c main_arg0) (V c main_arg1))
    (fun t hf => flushed0_sin V c t hf) cover0_3

end

end Cert.KernelIdeal.Fr

end
-- ==== Proof.KI.R1Blocks.lean ====
/-
  Region 1's input blocks as entries of the arrays they are cut from. The grid is [8, 4, 4]: point t is the group (i, j) =
  (t / 16, t / 4 % 4) at step k = t % 4 of the contracted axis. The cosine and sine windows hold block (i, k) of their
  [4096, 2048] arrays, the two amplitude windows block (j, k) of their [2048, 2048] arrays, the bias window block (0, j)
  of the [1, 2048] row; the output window is block (i, j). An entry of a block sits in its array at
  block index × 512 + its coordinate inside the block, on each axis.
-/
import proofs.«105969_j84696755077155_1_alg».proof.Proof.KI.R1Frame
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.ValueIdx
open Idealize.SL.Sem
open Idealize.ShloMosaic.Pipeline (Dat Cfg Window)
open Cert.KernelIdeal.Gen

variable {F : FTy → Type} [FloatOps F]

section
variable (V : (c : Dev nD) → (b : Ref sig .tc) → Buf (Elt F) ((c : Thread nD τ).loc b))

/-! ## The blocks and the arrays, at their literal types -/

/-- The cosine, sine, first-amplitude, second-amplitude and bias blocks the windows hold at point `t`. -/
abbrev csblk1 (c : Dev nD) (t : Fin cfg1.N) : Vec F S512x512 .f32 := iblk1 V c 0 t
abbrev snblk1 (c : Dev nD) (t : Fin cfg1.N) : Vec F S512x512 .f32 := iblk1 V c 1 t
abbrev anblk1 (c : Dev nD) (t : Fin cfg1.N) : Vec F S512x512 .f32 := iblk1 V c 2 t
abbrev bnblk1 (c : Dev nD) (t : Fin cfg1.N) : Vec F S512x512 .f32 := iblk1 V c 3 t
abbrev biasblk1 (c : Dev nD) (t : Fin cfg1.N) : Vec F S1x512 .f32 := iblk1 V c 4 t

/-- The five arrays the region reads, as it finds them. -/
abbrev csarr1 (c : Dev nD) : Vec F S4096x2048 .f32 := V c main_v2_0
abbrev snarr1 (c : Dev nD) : Vec F S4096x2048 .f32 := V c main_v2_1
abbrev anarr1 (c : Dev nD) : Vec F S2048x2048 .f32 := V c main_v0
abbrev bnarr1 (c : Dev nD) : Vec F S2048x2048 .f32 := V c main_v1
abbrev biasarr1 (c : Dev nD) : Vec F S1x2048 .f32 := V c main_arg4

end

/-! ## The index maps over the grid -/

/-- Each window's block index at point `t`, axis by axis. -/
theorem idx1 : ∀ t : Fin cfg1.N,
    win1_0.index t (0 : Fin 2) = t.val / 16 ∧ win1_0.index t (1 : Fin 2) = t.val % 4
    ∧ win1_1.index t (0 : Fin 2) = t.val / 16 ∧ win1_1.index t (1 : Fin 2) = t.val % 4
    ∧ win1_2.index t (0 : Fin 2) = t.val / 4 % 4 ∧ win1_2.index t (1 : Fin 2) = t.val % 4
    ∧ win1_3.index t (0 : Fin 2) = t.val / 4 % 4 ∧ win1_3.index t (1 : Fin 2) = t.val % 4
    ∧ win1_4.index t (0 : Fin 2) = 0 ∧ win1_4.index t (1 : Fin 2) = t.val / 4 % 4
    ∧ win1_5.index t (0 : Fin 2) = t.val / 16 ∧ win1_5.index t (1 : Fin 2) = t.val / 4 % 4 :=
  (by decide +kernel : ∀ t : Fin grid1.N, _)

section
variable (V : (c : Dev nD) → (b : Ref sig .tc) → Buf (Elt F) ((c : Thread nD τ).loc b))

/-! ## Each block's entry in its array -/

/-- Entry (p, kk) of the cosine block at point `t` is entry (512 (t / 16) + p, 512 (t % 4) + kk) of the cosines. -/
theorem csblk1_apply (c : Dev nD) (t : Fin cfg1.N) (p kk : Fin 512) (b : Fin 4096) (h : Fin 2048)
    (hb : b.val = 512 * (t.val / 16) + p.val) (hh : h.val = 512 * (t.val % 4) + kk.val) :
    csblk1 V c t (ix2 p kk) = csarr1 V c (ix2 b h) := by
  obtain ⟨e0, e1, -⟩ := idx1 t
  show iblk1 V c 0 t (ix2 p kk) = _
  unfold iblk1
  rw [View.read_apply]
  show V c main_v2_0 _ = V c main_v2_0 _
  congr 1
  funext a; apply Fin.ext
  match a with
  | ⟨0, _⟩ => show win1_0.index t (0 : Fin 2) * 512 + 1 * p.val = b.val; rw [e0, hb]; omega
  | ⟨1, _⟩ => show win1_0.index t (1 : Fin 2) * 512 + 1 * kk.val = h.val; rw [e1, hh]; omega

/-- The sine block likewise. -/
theorem snblk1_apply (c : Dev nD) (t : Fin cfg1.N) (p kk : Fin 512) (b : Fin 4096) (h : Fin 2048)
    (hb : b.val = 512 * (t.val / 16) + p.val) (hh : h.val = 512 * (t.val % 4) + kk.val) :
    snblk1 V c t (ix2 p kk) = snarr1 V c (ix2 b h) := by
  obtain ⟨-, -, e0, e1, -⟩ := idx1 t
  show iblk1 V c 1 t (ix2 p kk) = _
  unfold iblk1
  rw [View.read_apply]
  show V c main_v2_1 _ = V c main_v2_1 _
  congr 1
  funext a; apply Fin.ext
  match a with
  | ⟨0, _⟩ => show win1_1.index t (0 : Fin 2) * 512 + 1 * p.val = b.val; rw [e0, hb]; omega
  | ⟨1, _⟩ => show win1_1.index t (1 : Fin 2) * 512 + 1 * kk.val = h.val; rw [e1, hh]; omega

/-- Entry (q, kk) of the first amplitude block at point `t` is entry (512 (t / 4 % 4) + q, 512 (t % 4) + kk) of the first amplitudes. -/
theorem anblk1_apply (c : Dev nD) (t : Fin cfg1.N) (p kk : Fin 512) (b : Fin 2048) (h : Fin 2048)
    (hb : b.val = 512 * (t.val / 4 % 4) + p.val) (hh : h.val = 512 * (t.val % 4) + kk.val) :
    anblk1 V c t (ix2 p kk) = anarr1 V c (ix2 b h) := by
  obtain ⟨-, -, -, -, e0, e1, -⟩ := idx1 t
  show iblk1 V c 2 t (ix2 p kk) = _
  unfold iblk1
  rw [View.read_apply]
  show V c main_v0 _ = V c main_v0 _
  congr 1
  funext a; apply Fin.ext
  match a with
  | ⟨0, _⟩ => show win1_2.index t (0 : Fin 2) * 512 + 1 * p.val = b.val; rw [e0, hb]; omega
  | ⟨1, _⟩ => show win1_2.index t (1 : Fin 2) * 512 + 1 * kk.val = h.val; rw [e1, hh]; omega

/-- The second amplitude block likewise. -/
theorem bnblk1_apply (c : Dev nD) (t : Fin cfg1.N) (p kk : Fin 512) (b : Fin 2048) (h : Fin 2048)
    (hb : b.val = 512 * (t.val / 4 % 4) + p.val) (hh : h.val = 512 * (t.val % 4) + kk.val) :
    bnblk1 V c t (ix2 p kk) = bnarr1 V c (ix2 b h) := by
  obtain ⟨-, -, -, -, -, -, e0, e1, -⟩ := idx1 t
  show iblk1 V c 3 t (ix2 p kk) = _
  unfold iblk1
  rw [View.read_apply]
  show V c main_v1 _ = V c main_v1 _
  congr 1
  funext a; apply Fin.ext
  match a with
  | ⟨0, _⟩ => show win1_3.index t (0 : Fin 2) * 512 + 1 * p.val = b.val; rw [e0, hb]; omega
  | ⟨1, _⟩ => show win1_3.index t (1 : Fin 2) * 512 + 1 * kk.val = h.val; rw [e1, hh]; omega

/-- Entry (0, q) of the bias block at point `t` is entry (0, 512 (t / 4 % 4) + q) of the bias row. -/
theorem biasblk1_apply (c : Dev nD) (t : Fin cfg1.N) (q : Fin 512) (i : Fin 2048)
    (hi : i.val = 512 * (t.val / 4 % 4) + q.val) :
    biasblk1 V c t (ix2 (0 : Fin 1) q) = biasarr1 V c (ix2 (0 : Fin 1) i) := by
  obtain ⟨-, -, -, -, -, -, -, -, e0, e1, -⟩ := idx1 t
  show iblk1 V c 4 t (ix2 (0 : Fin 1) q) = _
  unfold iblk1
  rw [View.read_apply]
  show V c main_arg4 _ = V c main_arg4 _
  congr 1
  funext a; apply Fin.ext
  match a with
  | ⟨0, _⟩ => show win1_4.index t (0 : Fin 2) * 1 + 1 * (0 : Fin 1).val = (0 : Fin 1).val; rw [e0]; rfl
  | ⟨1, _⟩ => show win1_4.index t (1 : Fin 2) * 512 + 1 * q.val = i.val; rw [e1, hi]; omega

end

end Cert.KernelIdeal.Fr

end
-- ==== Proof.LibTransDot.lean ====
/-
  A matrix product of an [R, K] operand by a [C, K] operand, contracted over the LAST axis of both (the
  dimension numbers lhs_contracting = [1], rhs_contracting = [1], no batch axes: the left operand against the
  transpose of the right one), read at an entry (p, q) on the extended reals: the plain sum over k of
  l(p, k) · r(q, k). Stated for ANY dimension-number record of that form, so that it serves every such product
  whatever the record's name and whatever R, K, C are.
-/
import Idealize.ShloMosaic.PureOps.Ideal.Laws
import Idealize.ShloMosaic.Lib.ValueIdx

noncomputable section

namespace Idealize.ShloMosaic.TransDot

open Idealize.ShloMosaic Idealize.ShloMosaic.ValueIdx

variable {R K C : ℕ}

/-- The dimension numbers of a row-by-row product: the left operand's axis 1 is contracted with the right
    operand's axis 1; the left operand's axis 0 and the right operand's axis 0 survive, in that order; no batch axes. -/
structure IsTrans (d : DotDims ⟨2, ![R, K]⟩ ⟨2, ![C, K]⟩ ⟨2, ![R, C]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![R, K]⟩ ⟨2, ![C, K]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsTrans d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's row is the result's column. -/
theorem rhs_row (h : IsTrans d) (j : (⟨2, ![R, C]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsTrans d) : d.contr.rank = 1 := by
  rw [d.rank_contr, h.lc]; rfl

theorem contr_size (h : IsTrans d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsTrans d) {φ₁ φ₂ : FTy} (l : FVec Ideal ⟨2, ![R, K]⟩ φ₁) (r : FVec Ideal ⟨2, ![C, K]⟩ φ₂)
    (p : Fin R) (q : Fin C) :
    (∑ k : d.contr.Idx, l (d.lhsIdx (ix2 p q) k) * r (d.rhsIdx (ix2 p q) k)) = ∑ k : Fin K, l (ix2 p k) * r (ix2 q k) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 q k := funext fun a => Fin.ext (by
    match a with
    | ⟨0, _⟩ => exact rhs_row h _ _
    | ⟨1, _⟩ => exact (d.rhsIdx_val_of_single h.rc _ _).trans hk)
  rw [el, er]

/-- A kernel's matrix product into a zero accumulator, read at (p, q). -/
theorem matmul_zero_apply (h : IsTrans d) {φ₁ φ₂ : FTy} (prec : Option ContractPrecision)
    (l : FVec Ideal ⟨2, ![R, K]⟩ φ₁) (r : FVec Ideal ⟨2, ![C, K]⟩ φ₂) (p : Fin R) (q : Fin C) :
    FloatOps.matmul d prec l r (constant ⟨2, ![R, C]⟩ .f32 0x00000000#32) (ix2 p q) = ∑ k : Fin K, l (ix2 p k) * r (ix2 q k) := by
  rw [Ideal.matmul_constant_zero_apply]
  exact sum_apply h l r p q

/-- The host's matrix product read at (p, q). -/
theorem dotGeneral_apply (h : IsTrans d) {φ₁ φ₂ : FTy} (prec : Option ContractPrecision) (sched : HostSchedule)
    (l : FVec Ideal ⟨2, ![R, K]⟩ φ₁) (r : FVec Ideal ⟨2, ![C, K]⟩ φ₂) (p : Fin R) (q : Fin C) :
    FloatOps.dotGeneral d prec sched l r (ix2 p q) = ∑ k : Fin K, l (ix2 p k) * r (ix2 q k) := by
  rw [Ideal.dotGeneral_apply]
  exact sum_apply h l r p q

end Idealize.ShloMosaic.TransDot

end
-- ==== Proof.KI.R1Pay.lean ====
/-
  Region 1's four stored values, read at an entry (p, q) of the 512×512 block on the extended reals:
  the reset stores 0; each of the two updates of a step stores the accumulator plus the product of a 512×512 block
  with the TRANSPOSE of another (both contracted over their last axis: the sum over kk of l(p, kk) · r(q, kk));
  the last step stores the accumulator plus 2048 times the bias row, the same row at every p.
  Truncation to bf16 is the identity on the extended reals, and a shape cast of a shape to itself is the identity.
-/
import proofs.«105969_j84696755077155_1_alg».proof.Proof.Gen.KernelIdeal.Skeleton
import proofs.«105969_j84696755077155_1_alg».proof.Proof.LibTransDot
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Fr

open Idealize.ShloMosaic Idealize.ShloMosaic.ValueIdx
open Cert.KernelIdeal.Gen

/-- The dimension numbers of region 1's two products: both operands contracted over their last axis. -/
theorem isTrans1 : TransDot.IsTrans (R := 512) (K := 512) (C := 512) dot_S512x512_S512x512_S512x512_1_1_0_0_n_n :=
  ⟨rfl, rfl, rfl, rfl, rfl, rfl⟩

/-- A block truncated to bf16 after a cast of its shape to itself is, entry by entry, the block. -/
theorem trunc_cast_apply (v : Vec Ideal S512x512 .f32) (j : S512x512.Idx) :
    (truncf .bf16 (shapeCast S512x512 v shapeCasts_S512x512_S512x512) bitsLt_bf16_f32 : FVec Ideal S512x512 .bf16) j = v j :=
  congrFun (shapeCast_self v shapeCasts_S512x512_S512x512) j

/-- The reset's value: 0 everywhere. -/
theorem gain_pay1_apply (p q : Fin 512) : k1_pay1 (F := Ideal) (ix2 p q) = 0 := by
  unfold k1_pay1
  refine (congrFun (shapeCast_self _ _) (ix2 p q)).trans ?_
  exact Ideal.ofBits_zero_f32

/-- The product of a block with the transpose of another, both truncated, into the zero block, at (p, q). -/
theorem prod_apply (l r : Vec Ideal S512x512 .f32) (p q : Fin 512) :
    (matmul dot_S512x512_S512x512_S512x512_1_1_0_0_n_n none
        (truncf .bf16 (shapeCast S512x512 l shapeCasts_S512x512_S512x512) bitsLt_bf16_f32 : FVec Ideal S512x512 .bf16)
        (truncf .bf16 (shapeCast S512x512 r shapeCasts_S512x512_S512x512) bitsLt_bf16_f32 : FVec Ideal S512x512 .bf16)
        (constant S512x512 .f32 0x00000000#32) : FVec Ideal S512x512 .f32) (ix2 p q)
      = ∑ kk : Fin 512, l (ix2 p kk) * r (ix2 q kk) := by
  refine (TransDot.matmul_zero_apply isTrans1 none _ _ p q).trans ?_
  refine Finset.sum_congr rfl fun kk _ => ?_
  exact congrArg₂ (· * ·) (trunc_cast_apply l (ix2 p kk)) (trunc_cast_apply r (ix2 q kk))

/-- The first update of a step: the accumulator plus the first product. -/
theorem gain_pay2_apply (v3 v9 v15 : Vec Ideal S512x512 .f32) (p q : Fin 512) :
    k1_pay2 (F := Ideal) v3 v9 v15 (ix2 p q) = v15 (ix2 p q) + ∑ kk : Fin 512, v3 (ix2 p kk) * v9 (ix2 q kk) := by
  unfold k1_pay2
  refine (congrFun (shapeCast_self _ _) (ix2 p q)).trans ?_
  refine (addf_apply _ _ _).trans ?_
  exact congrArg (v15 (ix2 p q) + ·) (prod_apply v3 v9 p q)

/-- The second update of a step: the accumulator plus the second product. -/
theorem gain_pay3_apply (v6 v12 v21 : Vec Ideal S512x512 .f32) (p q : Fin 512) :
    k1_pay3 (F := Ideal) v6 v12 v21 (ix2 p q) = v21 (ix2 p q) + ∑ kk : Fin 512, v6 (ix2 p kk) * v12 (ix2 q kk) := by
  unfold k1_pay3
  refine (congrFun (shapeCast_self _ _) (ix2 p q)).trans ?_
  refine (addf_apply _ _ _).trans ?_
  exact congrArg (v21 (ix2 p q) + ·) (prod_apply v6 v12 p q)

/-- The last step's stored block: the accumulator plus 2048 times the bias row's entry q. -/
theorem gain_pay4_apply (v30 : Vec Ideal S512x512 .f32) (v31 : Vec Ideal S1x512 .f32) (p q : Fin 512) :
    k1_pay4 (F := Ideal) v30 v31 (ix2 p q) = v30 (ix2 p q) + Ideal.ofBits .f32 0x45000000#32 * v31 (ix2 (0 : Fin 1) q) := by
  unfold k1_pay4
  refine (addf_apply _ _ _).trans ?_
  refine congrArg (v30 (ix2 p q) + ·) ?_
  refine (broadcastTo_1b_ab_apply _ _ p q).trans ?_
  rfl

end Cert.KernelIdeal.Fr

end
-- ==== Proof.KI.R1Pieces.lean ====
/-
  Region 1, what each control case's found pieces read back to: the accumulator after a first, a middle and a last step,
  and the output block stored at a last step, each as the kernel's payloads of the point's input blocks. Every store of
  the body covers its whole buffer, so the last store into a buffer is what it holds, and a load of the accumulator after
  a store reads that store's payload.
-/
import proofs.«105969_j84696755077155_1_alg».proof.Proof.KI.R1Frame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- The zero offsets, however spelt. -/
theorem hz1 : (![0, 0] : Fin 2 → Nat) = fun _ => 0 := funext fun a => by fin_cases a <;> rfl

/-- A load of the whole buffer after stores of which the LAST covers it reads that store's payload, whatever the earlier
    stores were. -/
theorem readCov_cons_unit_zero {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), View.mem_set_unit_zero rfl inb y⟩),
    View.canon_cons_unit_zero rfl, View.ld_unit_zero rfl]

section
variable (V : (c : Dev nD) → (b : Ref sig .tc) → Buf (Elt F) ((c : Thread nD τ).loc b))

/-- The accumulator read whole at the contents `xs` it was handed at. -/
theorem read_scratch1 (xs : Vec F S512x512 .f32) :
    View.read (Elt F) (View.whole cc1_scratch0) ((Memref.isWhole_whole cc1_scratch0 : scM1_0.IsWhole).unread xs) = xs :=
  (Memref.isWhole_whole cc1_scratch0 : scM1_0.IsWhole).read_unread xs

/-- After a first step: the reset's zero block, the first product added, then the second. -/
theorem soutA1_eq (c : Dev nD) (t : Fin cfg1.N) (h0 : t.val % 4 = 0) :
    soutA1 V c t h0 = k1_pay3 (iblk1 V c 1 t) (iblk1 V c 3 t) (k1_pay2 (iblk1 V c 0 t) (iblk1 V c 2 t) (k1_pay1 (F := F))) := by
  unfold soutA1
  rw [View.read_writes_eq_canon _ _ _ (scoverA1 V c t h0)]
  unfold runA1 kernelRun1_A
  dsimp only
  sl_unfold_words
  rw [View.canon_cons_unit_zero (S := S512x512) hz1]
  simp only [View.readAt_eq_ld, Memref.IsWhole.read_unread, View.ld_unit_zero (S := S512x512) hz1,
    View.readCov_unit_zero (S := S512x512) _ hz1, readCov_cons_unit_zero (S := S512x512) _ hz1]

/-- After a middle step: the two products added to what the step before left. -/
theorem soutB1_eq (c : Dev nD) (t : Fin cfg1.N) (h0 : ¬t.val % 4 = 0) (h1 : ¬t.val % 4 = 3) (xs : Vec F S512x512 .f32) :
    soutB1 V c t h0 h1 xs = k1_pay3 (iblk1 V c 1 t) (iblk1 V c 3 t) (k1_pay2 (iblk1 V c 0 t) (iblk1 V c 2 t) xs) := by
  unfold soutB1
  rw [View.read_writes_eq_canon _ _ _ (scoverB1 V c t h0 h1 xs)]
  unfold runB1 kernelRun1_B
  dsimp only
  sl_unfold_words
  rw [View.canon_cons_unit_zero (S := S512x512) hz1]
  simp only [View.readAt_eq_ld, Memref.IsWhole.read_unread, View.ld_unit_zero (S := S512x512) hz1,
    View.readCov_unit_zero (S := S512x512) _ hz1, readCov_cons_unit_zero (S := S512x512) _ hz1, read_scratch1]

/-- After a last step: the same. -/
theorem soutC1_eq (c : Dev nD) (t : Fin cfg1.N) (h1 : t.val % 4 = 3) (xs : Vec F S512x512 .f32) :
    soutC1 V c t h1 xs = k1_pay3 (iblk1 V c 1 t) (iblk1 V c 3 t) (k1_pay2 (iblk1 V c 0 t) (iblk1 V c 2 t) xs) := by
  unfold soutC1
  rw [View.read_writes_eq_canon _ _ _ (scoverC1 V c t h1 xs)]
  unfold runC1 kernelRun1_C
  dsimp only
  sl_unfold_words
  rw [View.canon_cons_unit_zero (S := S512x512) hz1]
  simp only [View.readAt_eq_ld, Memref.IsWhole.read_unread, View.ld_unit_zero (S := S512x512) hz1,
    View.readCov_unit_zero (S := S512x512) _ hz1, readCov_cons_unit_zero (S := S512x512) _ hz1, read_scratch1]

/-- The output block a last step stores: the accumulator it leaves, plus the scaled bias row. -/
theorem out5C1_eq (c : Dev nD) (t : Fin cfg1.N) (h1 : t.val % 4 = 3) (xs : Vec F S512x512 .f32) :
    out5C1 V c t h1 xs = k1_pay4 (k1_pay3 (iblk1 V c 1 t) (iblk1 V c 3 t) (k1_pay2 (iblk1 V c 0 t) (iblk1 V c 2 t) xs)) (iblk1 V c 4 t) := by
  unfold out5C1
  rw [View.read_writes_eq_canon _ _ _ (cover5C1 V c t h1 xs)]
  unfold runC1 kernelRun1_C
  dsimp only
  sl_unfold_words
  rw [View.canon_unit_zero (S := S512x512) hz1]
  simp only [View.readAt_eq_ld, Memref.IsWhole.read_unread, View.ld_unit_zero (S := S512x512) hz1, View.ld_unit_zero (S := S1x512) hz1,
    View.readCov_unit_zero (S := S512x512) _ hz1, readCov_cons_unit_zero (S := S512x512) _ hz1, read_scratch1]

end

end Cert.KernelIdeal.Fr

end
-- ==== Proof.KI.R1Inv.lean ====
/-
  Region 1's accumulator, entry by entry on the extended reals. Within the group (i, j) = (t / 16, t / 4 % 4) the entry
  (p, q) of the accumulator after step k = t % 4 is the sum over the steps kb ≤ k of the two block sums
    ∑ kk, cs[512 i + p, 512 kb + kk] · an[512 j + q, 512 kb + kk]  +  ∑ kk, sn[512 i + p, 512 kb + kk] · bn[512 j + q, 512 kb + kk],
  by induction on the point: the first step stores (0 + first block sum) + second block sum, every later step adds its two
  block sums to what the step before left. Addition on the extended reals is associative, and 0 + a = a. After the last
  step the four steps' block sums are the two whole sums over the 2048 harmonics.
-/
import proofs.«105969_j84696755077155_1_alg».proof.Proof.KI.R1Blocks
import proofs.«105969_j84696755077155_1_alg».proof.Proof.KI.R1Pay
import proofs.«105969_j84696755077155_1_alg».proof.Proof.KI.R1Pieces
import proofs.«105969_j84696755077155_1_alg».proof.Proof.KI.BlockSum

set_option maxRecDepth 16384

noncomputable section

open scoped BigOperators

namespace Cert.KernelIdeal.Fr

open Idealize.ShloMosaic Idealize.ShloMosaic.TcCoe Idealize.ShloMosaic.ValueIdx
open Idealize.SL.Sem
open Idealize.ShloMosaic.Pipeline (Dat Cfg Window)
open Cert.KernelIdeal.Gen

/-! ## Entries at natural-number coordinates -/

/-- Entry (r, k) of a two-axis array read at natural-number coordinates: 0 outside the array. -/
def entry {A B : ℕ} (a : FVec Ideal ⟨2, ![A, B]⟩ .f32) (r k : ℕ) : EReal :=
  if h : r < A ∧ k < B then a (ix2 ⟨r, h.1⟩ ⟨k, h.2⟩) else 0

/-- Inside the array it is the array's entry. -/
theorem entry_of_val {A B : ℕ} (a : FVec Ideal ⟨2, ![A, B]⟩ .f32) (r k : ℕ) (b : Fin A) (h : Fin B)
    (hb : b.val = r) (hh : h.val = k) : entry a r k = a (ix2 b h) := by
  subst hb; subst hh
  exact dif_pos ⟨b.isLt, h.isLt⟩

section
variable (V : (c : Dev nD) → (b : Ref sig .tc) → Buf (Elt Ideal) ((c : Thread nD τ).loc b))

/-- The term of the cosine-amplitude product at harmonic `k`, for the output entry (r, s); and the sine one. -/
def termC (c : Dev nD) (r s k : ℕ) : EReal :=
  entry (A := 4096) (B := 2048) (csarr1 V c) r k * entry (A := 2048) (B := 2048) (anarr1 V c) s k
def termS (c : Dev nD) (r s k : ℕ) : EReal :=
  entry (A := 4096) (B := 2048) (snarr1 V c) r k * entry (A := 2048) (B := 2048) (bnarr1 V c) s k

/-- What step `kb` of the contracted axis adds to the output entry (r, s): the two sums over its block of 512 harmonics. -/
def stepSum (c : Dev nD) (r s kb : ℕ) : EReal :=
  (∑ kk : Fin 512, termC V c r s (512 * kb + kk.val)) + ∑ kk : Fin 512, termS V c r s (512 * kb + kk.val)

/-! ## The blocks' entries at natural-number coordinates -/

theorem csblk1_entry (c : Dev nD) (t : Fin cfg1.N) (p kk : Fin 512) :
    csblk1 V c t (ix2 p kk) = entry (A := 4096) (B := 2048) (csarr1 V c) (512 * (t.val / 16) + p.val) (512 * (t.val % 4) + kk.val) := by
  have hN : t.val < 128 := lt_of_lt_of_eq t.isLt (show cfg1.N = 128 from N_1)
  exact (csblk1_apply V c t p kk ⟨512 * (t.val / 16) + p.val, by omega⟩ ⟨512 * (t.val % 4) + kk.val, by omega⟩ rfl rfl).trans
    (entry_of_val _ _ _ _ _ rfl rfl).symm
theorem snblk1_entry (c : Dev nD) (t : Fin cfg1.N) (p kk : Fin 512) :
    snblk1 V c t (ix2 p kk) = entry (A := 4096) (B := 2048) (snarr1 V c) (512 * (t.val / 16) + p.val) (512 * (t.val % 4) + kk.val) := by
  have hN : t.val < 128 := lt_of_lt_of_eq t.isLt (show cfg1.N = 128 from N_1)
  exact (snblk1_apply V c t p kk ⟨512 * (t.val / 16) + p.val, by omega⟩ ⟨512 * (t.val % 4) + kk.val, by omega⟩ rfl rfl).trans
    (entry_of_val _ _ _ _ _ rfl rfl).symm
theorem anblk1_entry (c : Dev nD) (t : Fin cfg1.N) (q kk : Fin 512) :
    anblk1 V c t (ix2 q kk) = entry (A := 2048) (B := 2048) (anarr1 V c) (512 * (t.val / 4 % 4) + q.val) (512 * (t.val % 4) + kk.val) := by
  have hN : t.val < 128 := lt_of_lt_of_eq t.isLt (show cfg1.N = 128 from N_1)
  exact (anblk1_apply V c t q kk ⟨512 * (t.val / 4 % 4) + q.val, by omega⟩ ⟨512 * (t.val % 4) + kk.val, by omega⟩ rfl rfl).trans
    (entry_of_val _ _ _ _ _ rfl rfl).symm
theorem bnblk1_entry (c : Dev nD) (t : Fin cfg1.N) (q kk : Fin 512) :
    bnblk1 V c t (ix2 q kk) = entry (A := 2048) (B := 2048) (bnarr1 V c) (512 * (t.val / 4 % 4) + q.val) (512 * (t.val % 4) + kk.val) := by
  have hN : t.val < 128 := lt_of_lt_of_eq t.isLt (show cfg1.N = 128 from N_1)
  exact (bnblk1_apply V c t q kk ⟨512 * (t.val / 4 % 4) + q.val, by omega⟩ ⟨512 * (t.val % 4) + kk.val, by omega⟩ rfl rfl).trans
    (entry_of_val _ _ _ _ _ rfl rfl).symm

/-! ## One step -/

/-- The two updates of the step at point `t`, over an accumulator `xs`: entry (p, q) gains the step's two block sums. -/
theorem step_apply (c : Dev nD) (t : Fin cfg1.N) (xs : Vec Ideal S512x512 .f32) (p q : Fin 512) :
    k1_pay3 (F := Ideal) (snblk1 V c t) (bnblk1 V c t) (k1_pay2 (F := Ideal) (csblk1 V c t) (anblk1 V c t) xs) (ix2 p q)
      = xs (ix2 p q) + stepSum V c (512 * (t.val / 16) + p.val) (512 * (t.val / 4 % 4) + q.val) (t.val % 4) := by
  refine (gain_pay3_apply (snblk1 V c t) (bnblk1 V c t) (k1_pay2 (F := Ideal) (csblk1 V c t) (anblk1 V c t) xs) p q).trans ?_
  refine (congrArg (· + ∑ kk : Fin 512, snblk1 V c t (ix2 p kk) * bnblk1 V c t (ix2 q kk))
    (gain_pay2_apply (csblk1 V c t) (anblk1 V c t) xs p q)).trans ?_
  refine (add_assoc _ _ _).trans (congrArg (xs (ix2 p q) + ·) ?_)
  unfold stepSum
  refine congrArg₂ (· + ·) (Finset.sum_congr rfl fun kk _ => ?_) (Finset.sum_congr rfl fun kk _ => ?_)
  · exact congrArg₂ (· * ·) (csblk1_entry V c t p kk) (anblk1_entry V c t q kk)
  · exact congrArg₂ (· * ·) (snblk1_entry V c t p kk) (bnblk1_entry V c t q kk)

/-! ## The accumulator after each point -/

/-- After a first step: the step's two block sums (the reset stored 0). -/
theorem accA_apply (c : Dev nD) (n : ℕ) (hn : n < cfg1.N) (h0 : n % 4 = 0) (p q : Fin 512) :
    accAt1 V c n hn (ix2 p q) = stepSum V c (512 * (n / 16) + p.val) (512 * (n / 4 % 4) + q.val) 0 := by
  refine (congrFun (accAt1_A V c ⟨n, hn⟩ h0) (ix2 p q)).trans ?_
  refine (congrFun (soutA1_eq V c ⟨n, hn⟩ h0) (ix2 p q)).trans ?_
  refine (step_apply V c ⟨n, hn⟩ (k1_pay1 (F := Ideal)) p q).trans ?_
  show k1_pay1 (F := Ideal) (ix2 p q) + stepSum V c (512 * (n / 16) + p.val) (512 * (n / 4 % 4) + q.val) (n % 4) = _
  rw [gain_pay1_apply, zero_add, h0]

/-- After a later step: what the step before left, plus the step's two block sums. -/
theorem accBC_apply (c : Dev nD) (n : ℕ) (hn : n + 1 < cfg1.N) (h0 : ¬(n + 1) % 4 = 0) (p q : Fin 512) :
    accAt1 V c (n + 1) hn (ix2 p q)
      = accAt1 V c n (Nat.lt_of_succ_lt hn) (ix2 p q)
        + stepSum V c (512 * ((n + 1) / 16) + p.val) (512 * ((n + 1) / 4 % 4) + q.val) ((n + 1) % 4) := by
  by_cases h1 : (n + 1) % 4 = 3
  · refine (congrFun (accAt1_C V c ⟨n + 1, hn⟩ h1) (ix2 p q)).trans ?_
    refine (congrFun (soutC1_eq V c ⟨n + 1, hn⟩ h1 _) (ix2 p q)).trans ?_
    exact step_apply V c ⟨n + 1, hn⟩ (accAt1 V c n (Nat.lt_of_succ_lt hn)) p q
  · refine (congrFun (accAt1_B V c ⟨n + 1, hn⟩ h0 h1) (ix2 p q)).trans ?_
    refine (congrFun (soutB1_eq V c ⟨n + 1, hn⟩ h0 h1 _) (ix2 p q)).trans ?_
    exact step_apply V c ⟨n + 1, hn⟩ (accAt1 V c n (Nat.lt_of_succ_lt hn)) p q

/-- THE INVARIANT: after the point at position `n`, entry (p, q) of the accumulator is the sum of the block sums of the steps
    0 … n % 4 of its group. -/
theorem accAt1_apply (c : Dev nD) (n : ℕ) : ∀ (hn : n < cfg1.N) (p q : Fin 512),
    accAt1 V c n hn (ix2 p q)
      = ∑ kb ∈ Finset.range (n % 4 + 1), stepSum V c (512 * (n / 16) + p.val) (512 * (n / 4 % 4) + q.val) kb := by
  induction n with
  | zero =>
    intro hn p q
    refine (accA_apply V c 0 hn rfl p q).trans ?_
    exact (Finset.sum_range_one _).symm
  | succ n ih =>
    intro hn p q
    by_cases h0 : (n + 1) % 4 = 0
    · refine (accA_apply V c (n + 1) hn h0 p q).trans ?_
      rw [h0]
      exact (Finset.sum_range_one _).symm
    · refine (accBC_apply V c n hn h0 p q).trans ?_
      have e16 : (n + 1) / 16 = n / 16 := by omega
      have e4 : (n + 1) / 4 % 4 = n / 4 % 4 := by omega
      have ek : (n + 1) % 4 = n % 4 + 1 := by omega
      rw [Finset.sum_range_succ, e16, e4, ek]
      exact congrArg (· + stepSum V c (512 * (n / 16) + p.val) (512 * (n / 4 % 4) + q.val) (n % 4 + 1)) (ih (Nat.lt_of_succ_lt hn) p q)

/-! ## After the last step: the two whole sums -/

/-- After the last step of a group, entry (p, q) of the accumulator is the cosine-amplitude sum plus the sine-amplitude sum
    over all 2048 harmonics. -/
theorem acc_last (c : Dev nD) (n : ℕ) (hn : n < cfg1.N) (h3 : n % 4 = 3) (p q : Fin 512) :
    accAt1 V c n hn (ix2 p q)
      = (∑ k : Fin 2048, termC V c (512 * (n / 16) + p.val) (512 * (n / 4 % 4) + q.val) k.val)
        + ∑ k : Fin 2048, termS V c (512 * (n / 16) + p.val) (512 * (n / 4 % 4) + q.val) k.val := by
  rw [accAt1_apply V c n hn p q, h3]
  unfold stepSum
  rw [Finset.sum_add_distrib, Cert.Fourier.sum_blocks, Cert.Fourier.sum_blocks]

end

end Cert.KernelIdeal.Fr

end
-- ==== Proof.KI.R1Value.lean ====
/-
  The value of region 1: its output array ends holding the gain of the five arrays it read. At the last step of the
  group (i, j) the body stores the accumulator plus 2048 times the bias row; entry (p, q) of that block is the gain at
  (512 i + p, 512 j + q): the accumulator there is the two whole sums over the harmonics, and the bias block's entry
  (0, q) is the bias row's entry 512 j + q. The 32 last-step points' blocks tile the [4096, 2048] array: entry (r, s) is in
  the block of the group (r / 512, s / 512).
-/
import proofs.«105969_j84696755077155_1_alg».proof.Proof.KI.R1Inv
import proofs.«105969_j84696755077155_1_alg».proof.Proof.KI.Spec

set_option maxRecDepth 16384

noncomputable section

open scoped BigOperators

namespace Cert.KernelIdeal.Fr

open Idealize.ShloMosaic Idealize.ShloMosaic.TcCoe Idealize.ShloMosaic.ValueIdx
open Idealize.SL.Sem
open Idealize.ShloMosaic.Pipeline (Dat Cfg Window)
open Cert.KernelIdeal.Gen

/-! ## The stored block at a last step -/

section
variable (V : (c : Dev nD) → (b : Ref sig .tc) → Buf (Elt Ideal) ((c : Thread nD τ).loc b))

/-- At a last step the stored block is the accumulator after the step, plus 2048 times the bias row. -/
theorem gainAt1_eq (c : Dev nD) (t : Fin cfg1.N) (h1 : t.val % 4 = 3) :
    gainAt1 V c t = k1_pay4 (F := Ideal) (accAt1 V c t.val t.isLt) (biasblk1 V c t) := by
  unfold gainAt1
  rw [dif_pos h1]
  refine (out5C1_eq V c t h1 _).trans ?_
  refine congrArg (fun z => k1_pay4 (F := Ideal) z (biasblk1 V c t)) ?_
  exact ((accAt1_C V c t h1).trans (soutC1_eq V c t h1 _)).symm

/-- Entry (p, q) of the block stored at the last step of the group (i, j) is the gain at (512 i + p, 512 j + q). -/
theorem gainAt1_apply (c : Dev nD) (t : Fin cfg1.N) (h1 : t.val % 4 = 3) (p q : Fin 512) (b : Fin 4096) (i : Fin 2048)
    (hb : b.val = 512 * (t.val / 16) + p.val) (hi : i.val = 512 * (t.val / 4 % 4) + q.val) :
    gainAt1 V c t (ix2 p q)
      = Cert.Fourier.gainAt (csarr1 V c) (snarr1 V c) (anarr1 V c) (bnarr1 V c) (biasarr1 V c) b i := by
  refine (congrFun (gainAt1_eq V c t h1) (ix2 p q)).trans ?_
  refine (gain_pay4_apply (accAt1 V c t.val t.isLt) (biasblk1 V c t) p q).trans ?_
  unfold Cert.Fourier.gainAt
  refine congrArg₂ (· + ·) ?_ (congrArg (Ideal.ofBits .f32 0x45000000#32 * ·) (biasblk1_apply V c t q i hi))
  refine (acc_last V c t.val t.isLt h1 p q).trans ?_
  refine congrArg₂ (· + ·) (Finset.sum_congr rfl fun k _ => ?_) (Finset.sum_congr rfl fun k _ => ?_)
  · exact congrArg₂ (· * ·) (entry_of_val _ _ _ b k hb rfl) (entry_of_val _ _ _ i k hi rfl)
  · exact congrArg₂ (· * ·) (entry_of_val _ _ _ b k hb rfl) (entry_of_val _ _ _ i k hi rfl)

/-! ## From the blocks to the array -/

/-- What a last-step point writes back is its block of the gain. -/
theorem flushed1_5 (c : Dev nD) (t : Fin cfg1.N) (hf : (cfg1.win 5).flush t = true) :
    (dat1 V c).flushed 5 t
      = ((cfg1.win 5).blk t).view.read (Elt Ideal)
          (Cert.Fourier.gain (csarr1 V c) (snarr1 V c) (anarr1 V c) (bnarr1 V c) (biasarr1 V c)) := by
  have h1 : t.val % 4 = 3 := (flush1_5 t).mp hf
  obtain ⟨-, -, -, -, -, -, -, -, -, -, e0, e1⟩ := idx1 t
  show (cfg1.win 5).cut (grid1.coords t) ((dat1 V c).after 5 t) = _
  rw [after1_5]
  refine funext fun (y : S512x512.Idx) => ?_
  obtain ⟨p, q, rfl⟩ : ∃ (p q : Fin 512), y = ix2 p q := ⟨y 0, y 1, eq_ix2 (n0 := 512) (n1 := 512) y⟩
  show gainAt1 V c t (ix2 p q)
    = Cert.Fourier.gainAt (csarr1 V c) (snarr1 V c) (anarr1 V c) (bnarr1 V c) (biasarr1 V c)
        ((((cfg1.win 5).blk t).view.emb (ix2 p q)) 0) ((((cfg1.win 5).blk t).view.emb (ix2 p q)) 1)
  refine gainAt1_apply V c t h1 p q _ _ ?_ ?_
  · show win1_5.index t (0 : Fin 2) * 512 + 1 * p.val = _; rw [e0]; omega
  · show win1_5.index t (1 : Fin 2) * 512 + 1 * q.val = _; rw [e1]; omega

/-- An index of the output array is in point `t`'s block iff each coordinate is in the block's range on its axis. -/
theorem mem_blk1_5 (t : Fin cfg1.N) (i : S4096x2048.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v3).slice (win1_5.rect t)).set ↔ _
  rw [View.set_slice_whole, Rect.mem_set_unit]
  exact Iff.rfl

/-- Every entry (r, s) of the output is in the block of the last-step point of the group (r / 512, s / 512). -/
theorem cover1_5 (i : S4096x2048.Idx) :
    ∃ t : Fin cfg1.N, (cfg1.win 5).flush t = true ∧ i ∈ ((cfg1.win 5).blk t).view.set := by
  have hi0 : (i 0).val < 4096 := (i 0).isLt
  have hi1 : (i 1).val < 2048 := (i 1).isLt
  have hN : cfg1.N = 128 := N_1
  refine ⟨⟨16 * ((i 0).val / 512) + 4 * ((i 1).val / 512) + 3, by omega⟩, (flush1_5 _).mpr (by show (16 * ((i 0).val / 512) + 4 * ((i 1).val / 512) + 3) % 4 = 3; omega), ?_⟩
  rw [mem_blk1_5]
  obtain ⟨-, -, -, -, -, -, -, -, -, -, e0, e1⟩ := idx1 ⟨16 * ((i 0).val / 512) + 4 * ((i 1).val / 512) + 3, by omega⟩
  intro a
  match a with
  | ⟨0, _⟩ =>
    show win1_5.index _ (0 : Fin 2) * 512 ≤ (i 0).val ∧ (i 0).val < win1_5.index _ (0 : Fin 2) * 512 + 512
    rw [e0]; dsimp only; omega
  | ⟨1, _⟩ =>
    show win1_5.index _ (1 : Fin 2) * 512 ≤ (i 1).val ∧ (i 1).val < win1_5.index _ (1 : Fin 2) * 512 + 512
    rw [e1]; dsimp only; omega

/-- THE VALUE OF REGION 1: the output array ends holding the gain of the five arrays the region read. -/
theorem final1 (c : Dev nD) :
    (dat1 (F := Ideal) V c).arrAt 5 cfg1.N
      = Cert.Fourier.gain (V c main_v2_0) (V c main_v2_1) (V c main_v0) (V c main_v1) (V c main_arg4) :=
  (dat1 V c).arrAt_eq_of_cover 5 _ (flushed1_5 V c) (cover1_5)

end

end Cert.KernelIdeal.Fr

end
-- ==== Proof.KI.DropUnit.lean ====
/-
  A [1, 2048, 2048] array cast to [2048, 2048] is the array with its unit leading axis dropped: in row-major order
  the entry (0, i, k) of the first and the entry (i, k) of the second sit at the same place, i · 2048 + k.
-/
import proofs.«105969_j84696755077155_1_alg».proof.Proof.KI.Spec
import Idealize.ShloMosaic.Lib.ValueIdx
import Idealize.ShloMosaic.Lib.ValueLayout

set_option maxRecDepth 16384

noncomputable section

namespace Cert.Fourier

open Idealize.ShloMosaic Idealize.ShloMosaic.ValueIdx

/-- The cast that drops the unit leading axis, whatever the proof that the two shapes hold equally many entries. -/
theorem shapeCast_dropUnit (a : FVec Ideal S1HH .f32) (h : S1HH.ShapeCasts SHH) : shapeCast SHH a h = dropUnit a := by
  funext j
  obtain ⟨i, k, rfl⟩ : ∃ (i k : Fin 2048), j = ix2 i k := ⟨j 0, j 1, eq_ix2 j⟩
  exact shapeCast_1ab_ab_apply a h i k

end Cert.Fourier

end
-- ==== Proof.KI.Value.lean ====
/-
  The idealized kernel's result array, after the whole run, as the specification of the five arguments: the gain region's
  output array is the gain of what it was entered with; of those the cosine and sine arrays are the phase region's outputs,
  the two amplitude arrays are the host reshapes of the arguments (their unit axis dropped), and the bias and the phase
  region's inputs are the arguments themselves, which no earlier item writes.
-/
import proofs.«105969_j84696755077155_1_alg».proof.Proof.KI.Run
import proofs.«105969_j84696755077155_1_alg».proof.Proof.KI.R0Value
import proofs.«105969_j84696755077155_1_alg».proof.Proof.KI.R1Value
import proofs.«105969_j84696755077155_1_alg».proof.Proof.KI.DropUnit
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt Ideal) ℓ)

/-- The first reshape's result: the first amplitude array with its unit axis dropped. -/
theorem W1_main_v0 (c : Dev nD) : W1 m c (Proc.devRef .tc main_v0) = Cert.Fourier.dropUnit (m ((c : Thread nD τ).loc main_arg2)) := by
  refine Eq.trans ?_ (Cert.Fourier.shapeCast_dropUnit _ shapeCasts_S1x2048x2048_S2048x2048)
  dsimp only [W1, hostOps0]; after_results; rfl
/-- The second reshape's result, likewise. -/
theorem W1_main_v1 (c : Dev nD) : W1 m c (Proc.devRef .tc main_v1) = Cert.Fourier.dropUnit (m ((c : Thread nD τ).loc main_arg3)) := by
  refine Eq.trans ?_ (Cert.Fourier.shapeCast_dropUnit _ shapeCasts_S1x2048x2048_S2048x2048)
  dsimp only [W1, hostOps0]; after_results; rfl

/-- The phase region's two output arrays, as the gain region finds them. -/
theorem W2_main_v2_0 (c : Dev nD) : W2 m c (Proc.devRef .tc main_v2_0) = Cert.Fourier.cosArr (m ((c : Thread nD τ).loc main_arg0)) (m ((c : Thread nD τ).loc main_arg1)) := by
  refine (W2_arr m c 2).trans ((final0_cos (V1 m) c).trans ?_)
  rw [show V1 m c main_arg0 = m ((c : Thread nD τ).loc main_arg0) from W1_of m c main_arg0 (by decide),
    show V1 m c main_arg1 = m ((c : Thread nD τ).loc main_arg1) from W1_of m c main_arg1 (by decide)]
theorem W2_main_v2_1 (c : Dev nD) : W2 m c (Proc.devRef .tc main_v2_1) = Cert.Fourier.sinArr (m ((c : Thread nD τ).loc main_arg0)) (m ((c : Thread nD τ).loc main_arg1)) := by
  refine (W2_arr m c 3).trans ((final0_sin (V1 m) c).trans ?_)
  rw [show V1 m c main_arg0 = m ((c : Thread nD τ).loc main_arg0) from W1_of m c main_arg0 (by decide),
    show V1 m c main_arg1 = m ((c : Thread nD τ).loc main_arg1) from W1_of m c main_arg1 (by decide)]

/-- The result array after the run is the specification of the arguments. -/
theorem W3_main_v3 (c : Dev nD) :
    W3 m c (Proc.devRef .tc main_v3) = Cert.Fourier.G (m ((c : Thread nD τ).loc main_arg0)) (m ((c : Thread nD τ).loc main_arg1))
      (m ((c : Thread nD τ).loc main_arg2)) (m ((c : Thread nD τ).loc main_arg3)) (m ((c : Thread nD τ).loc main_arg4)) := by
  refine (W3_arr m c 5).trans ((final1 (V2 m) c).trans ?_)
  unfold Cert.Fourier.G
  rw [show V2 m c main_v2_0 = _ from W2_main_v2_0 m c, show V2 m c main_v2_1 = _ from W2_main_v2_1 m c,
    show V2 m c main_v0 = _ from (W2_of_ne m c main_v0 (by decide)).trans (W1_main_v0 m c),
    show V2 m c main_v1 = _ from (W2_of_ne m c main_v1 (by decide)).trans (W1_main_v1 m c),
    show V2 m c main_arg4 = m ((c : Thread nD τ).loc main_arg4) from (W2_of_ne m c main_arg4 (by decide)).trans (W1_of m c main_arg4 (by decide))]

/-- The idealized kernel's run with its result named: the value claim's first half. -/
theorem run_value (ρ : Dev nD → PrngReg) : θ_run defs (onTc (τ := τ) (main (F := Ideal))) ⟨m, fun _ => 0, ρ⟩ (fun r => ∀ c : Dev nD,
      r.2.mem ((c.tc : Thread nD τ).loc main_v3) = Cert.Fourier.G (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans (W3_main_v3 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.KernelIdeal.Fr

end
-- ==== Proof.KI.RefValue.lean ====
/-
  The reference's result, read index by index, is the specification `Cert.Fourier.G` of its arguments.

  The reference computes, from x : [4096, 2048], the coefficients w : [2048, 2048], the amplitudes an3, bn3 : [1, 2048, 2048]
  and bias : [1, 2048],
    p       = x · w                                   (contracting x's axis 1 with w's axis 0)
    result  = (cos p · anᵀ + sin p · bnᵀ) + (2048 · bias broadcast along the rows),
  where an, bn are the amplitudes with their unit leading axis dropped and both products contract axis 1 with axis 1.
  Each stage is read here at an index (b, i) written by its two coordinates: the three products are sums over the
  2048 harmonics, the cosine and the sine are pointwise, the reshape reads the amplitude at (0, i, h), the two
  broadcasts read the constant and bias[0, i]. Stage by stage these are the sums the specification names, so the two
  sides are the same function and no algebra is needed.
-/
import proofs.«105969_j84696755077155_1_alg».proof.Proof.Gen.ReferenceIdeal.Run
import proofs.«105969_j84696755077155_1_alg».proof.Proof.Gen.ReferenceIdeal.Read
import proofs.«105969_j84696755077155_1_alg».proof.Proof.KI.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Idealize.ShloMosaic Idealize.ShloMosaic.ValueIdx

/-! ## The index functions of the three products and of the row broadcast, at an index written by coordinates -/

/-- First product, left operand: entry (b, h) reads x at (b, k). -/
theorem lidx_v0 (b : Fin 4096) (h k : Fin 2048) : Read.lidx_main_v0 (ix2 b h) k = ix2 b k :=
  funext fun a => Fin.ext (by match a with | ⟨0, _⟩ => rfl | ⟨1, _⟩ => rfl)
/-- First product, right operand: entry (b, h) reads w at (k, h). -/
theorem ridx_v0 (b : Fin 4096) (h k : Fin 2048) : Read.ridx_main_v0 (ix2 b h) k = ix2 k h :=
  funext fun a => Fin.ext (by match a with | ⟨0, _⟩ => rfl | ⟨1, _⟩ => rfl)
/-- Cosine product, left operand: entry (b, i) reads the cosines at (b, h). -/
theorem lidx_v3 (b : Fin 4096) (i h : Fin 2048) : Read.lidx_main_v3 (ix2 b i) h = ix2 b h :=
  funext fun a => Fin.ext (by match a with | ⟨0, _⟩ => rfl | ⟨1, _⟩ => rfl)
/-- Cosine product, right operand: entry (b, i) reads the amplitudes at (i, h): both contract their axis 1. -/
theorem ridx_v3 (b : Fin 4096) (i h : Fin 2048) : Read.ridx_main_v3 (ix2 b i) h = ix2 i h :=
  funext fun a => Fin.ext (by match a with | ⟨0, _⟩ => rfl | ⟨1, _⟩ => rfl)
/-- Sine product, left operand. -/
theorem lidx_v6 (b : Fin 4096) (i h : Fin 2048) : Read.lidx_main_v6 (ix2 b i) h = ix2 b h :=
  funext fun a => Fin.ext (by match a with | ⟨0, _⟩ => rfl | ⟨1, _⟩ => rfl)
/-- Sine product, right operand. -/
theorem ridx_v6 (b : Fin 4096) (i h : Fin 2048) : Read.ridx_main_v6 (ix2 b i) h = ix2 i h :=
  funext fun a => Fin.ext (by match a with | ⟨0, _⟩ => rfl | ⟨1, _⟩ => rfl)
/-- The row broadcast [1, 2048] → [4096, 2048]: entry (b, i) reads the row at (0, i). -/
theorem idx_v10 (b : Fin 4096) (i : Fin 2048) : Read.idx_main_v10 (ix2 b i) = ix2 (0 : Fin 1) i :=
  funext fun a => Fin.ext (by match a with | ⟨0, _⟩ => rfl | ⟨1, _⟩ => rfl)

/-! ## The stages at an index -/

/-- The first product at (b, h) is the phase of sample b at harmonic h. -/
theorem v0_at (x : FVec Ideal S4096x2048 .f32) (w : FVec Ideal S2048x2048 .f32) (b : Fin 4096) (h : Fin 2048) :
    Read.val_main_v0 (F := Ideal) x w (ix2 b h) = Cert.Fourier.phase x w b h := by
  refine (Read.val_main_v0_apply x w (ix2 b h)).trans ?_
  unfold Cert.Fourier.phase
  refine Finset.sum_congr rfl fun k _ => ?_
  rw [lidx_v0, ridx_v0]

/-- The cosine stage at (b, h). -/
theorem v1_at (x : FVec Ideal S4096x2048 .f32) (w : FVec Ideal S2048x2048 .f32) (b : Fin 4096) (h : Fin 2048) :
    Read.val_main_v1 (F := Ideal) x w (ix2 b h) = Cert.Fourier.cosArr x w (ix2 b h) := by
  refine (Read.val_main_v1_apply (F := Ideal) x w (ix2 b h)).trans ?_
  rw [v0_at, Ideal.hostUnary_cos_def]
  rfl

/-- The sine stage at (b, h). -/
theorem v4_at (x : FVec Ideal S4096x2048 .f32) (w : FVec Ideal S2048x2048 .f32) (b : Fin 4096) (h : Fin 2048) :
    Read.val_main_v4 (F := Ideal) x w (ix2 b h) = Cert.Fourier.sinArr x w (ix2 b h) := by
  refine (Read.val_main_v4_apply (F := Ideal) x w (ix2 b h)).trans ?_
  rw [v0_at, Ideal.hostUnary_sin_def]
  rfl

/-- The reshape [1, 2048, 2048] → [2048, 2048] at (i, h) reads the amplitude at (0, i, h): the unit axis dropped. -/
theorem v2_at (a : FVec Ideal S1x2048x2048 .f32) (i h : Fin 2048) :
    Read.val_main_v2 (F := Ideal) a (ix2 i h) = Cert.Fourier.dropUnit a (ix2 i h) :=
  shapeCast_1ab_ab_apply a shapeCasts_S1x2048x2048_S2048x2048 i h

/-- The second reshape, likewise. -/
theorem v5_at (a : FVec Ideal S1x2048x2048 .f32) (i h : Fin 2048) :
    Read.val_main_v5 (F := Ideal) a (ix2 i h) = Cert.Fourier.dropUnit a (ix2 i h) :=
  shapeCast_1ab_ab_apply a shapeCasts_S1x2048x2048_S2048x2048 i h

/-- The cosine product at (b, i): the sum over the harmonics of cos (phase b h) · an[i, h]. -/
theorem v3_at (x : FVec Ideal S4096x2048 .f32) (w : FVec Ideal S2048x2048 .f32) (an3 : FVec Ideal S1x2048x2048 .f32)
    (b : Fin 4096) (i : Fin 2048) :
    Read.val_main_v3 (F := Ideal) x w an3 (ix2 b i)
      = ∑ h : Fin 2048, Cert.Fourier.cosArr x w (ix2 b h) * Cert.Fourier.dropUnit an3 (ix2 i h) := by
  refine (Read.val_main_v3_apply x w an3 (ix2 b i)).trans ?_
  refine Finset.sum_congr rfl fun h _ => ?_
  rw [lidx_v3, ridx_v3, v1_at, v2_at]

/-- The sine product at (b, i): the sum over the harmonics of sin (phase b h) · bn[i, h]. -/
theorem v6_at (x : FVec Ideal S4096x2048 .f32) (w : FVec Ideal S2048x2048 .f32) (bn3 : FVec Ideal S1x2048x2048 .f32)
    (b : Fin 4096) (i : Fin 2048) :
    Read.val_main_v6 (F := Ideal) x w bn3 (ix2 b i)
      = ∑ h : Fin 2048, Cert.Fourier.sinArr x w (ix2 b h) * Cert.Fourier.dropUnit bn3 (ix2 i h) := by
  refine (Read.val_main_v6_apply x w bn3 (ix2 b i)).trans ?_
  refine Finset.sum_congr rfl fun h _ => ?_
  rw [lidx_v6, ridx_v6, v4_at, v5_at]

/-- The bias term at (b, i): the constant 2048, broadcast from a scalar, times bias[0, i], broadcast along the rows. -/
theorem v10_at (bias : FVec Ideal S1x2048 .f32) (b : Fin 4096) (i : Fin 2048) :
    Read.val_main_v10 (F := Ideal) bias (ix2 b i) = Ideal.ofBits .f32 0x45000000#32 * bias (ix2 (0 : Fin 1) i) := by
  refine (Read.val_main_v10_apply (F := Ideal) bias (ix2 b i)).trans ?_
  rw [idx_v10]
  refine (Read.val_main_v9_apply (F := Ideal) bias (ix2 (0 : Fin 1) i)).trans ?_
  rw [Read.val_main_v8_apply, Read.val_main_cst_apply]
  rfl

/-! ## The whole -/

/-- The reference's result, as the term its run states of the five arguments, is the specification. -/
theorem result_eq (x : FVec Ideal S4096x2048 .f32) (w : FVec Ideal S2048x2048 .f32) (an3 bn3 : FVec Ideal S1x2048x2048 .f32)
    (bias : FVec Ideal S1x2048 .f32) :
    addf (addf
        (Host.dotGeneral (F := Ideal) dot_S4096x2048_S2048x2048_S4096x2048_1_1_0_0_n_n none
          (Host.cos (F := Ideal) (Host.dotGeneral (F := Ideal) dot_S4096x2048_S2048x2048_S4096x2048_1_0_0_1_n_n none x w))
          (shapeCast _ an3 shapeCasts_S1x2048x2048_S2048x2048))
        (Host.dotGeneral (F := Ideal) dot_S4096x2048_S2048x2048_S4096x2048_1_1_0_0_n_n none
          (Host.sin (F := Ideal) (Host.dotGeneral (F := Ideal) dot_S4096x2048_S2048x2048_S4096x2048_1_0_0_1_n_n none x w))
          (shapeCast _ bn3 shapeCasts_S1x2048x2048_S2048x2048)))
      (broadcastInDim S4096x2048 ![0, 1] bcast_S1x2048_S4096x2048_0_1
        (mulf (broadcastInDim S1x2048 ![] bcast_S_S1x2048 (constant (F := Ideal) S_ .f32 0x45000000#32)) bias))
    = Cert.Fourier.G x w an3 bn3 bias := by
  refine (Read.val_main_v11_eq (F := Ideal) x w an3 bn3 bias).trans ?_
  funext j
  obtain ⟨b, i, rfl⟩ : ∃ (b : Fin 4096) (i : Fin 2048), j = ix2 b i := ⟨j 0, j 1, eq_ix2 j⟩
  refine (Read.val_main_v11_apply (F := Ideal) x w an3 bn3 bias (ix2 b i)).trans ?_
  rw [Read.val_main_v7_apply, v3_at, v6_at, v10_at]
  -- Both sides are now the two amplitude sums plus the bias term; the specification is read at (b, i).
  change _ = Cert.Fourier.gainAt (Cert.Fourier.cosArr x w) (Cert.Fourier.sinArr x w) (Cert.Fourier.dropUnit an3)
    (Cert.Fourier.dropUnit bn3) bias b i
  unfold Cert.Fourier.gainAt
  rfl

end Cert.ReferenceIdeal.RefValue

end
-- ==== Proof.lean ====
/-
  The certificate of the Fourier-series layer: a Pallas kernel of two pipelined regions against its jnp reference.

  Both compute, for x : [4096, 2048], coefficients w : [2048, 2048], amplitudes an, bn : [1, 2048, 2048], bias : [1, 2048],
      phase b h = ∑ k, x[b, k] · w[k, h],
      gain b i  = (∑ h, cos (phase b h) · an[0, i, h] + ∑ h, sin (phase b h) · bn[0, i, h]) + 2048 · bias[0, i].
  The kernel's first region accumulates the phase of a 512×512 block over four 512-wide steps of the contracted axis in a
  scratch and stores its cosine and sine at the last step; its second region accumulates the two amplitude products the same
  way and adds 2048 · bias at the last step. On the extended reals a sum may be taken in any order and grouping (addition is
  commutative and associative there, and 0 + a = a), the bf16 roundings on the way into the matrix unit are the identity, and
  a matrix product into a zero accumulator is the plain sum: so both programs compute the same function of the arguments,
  entry by entry, and the precondition is never opened.

  The three frames: the two kernel programs (the word-level one and its idealization are one text read at two instances)
  run to the end through the launch of their segments — two host reshapes, then each region entered from the buffers the
  item before left — with the accumulator's contents carried by the region invariant from grid point to grid point; the
  reference is a straight line of host operations, its frame its run with the result dropped.
-/
import proofs.«105969_j84696755077155_1_alg».proof.Defs
import proofs.«105969_j84696755077155_1_alg».proof.Proof.Gen.Kernel
import proofs.«105969_j84696755077155_1_alg».proof.Proof.Gen.KernelIdeal
import proofs.«105969_j84696755077155_1_alg».proof.Proof.Gen.ReferenceIdeal
import proofs.«105969_j84696755077155_1_alg».proof.Proof.Gen.Pre_finite_inputs
import proofs.«105969_j84696755077155_1_alg».proof.Proof.Gen.ReferenceIdeal.Run
import proofs.«105969_j84696755077155_1_alg».proof.Proof.K.Run
import proofs.«105969_j84696755077155_1_alg».proof.Proof.KI.Run
import proofs.«105969_j84696755077155_1_alg».proof.Proof.KI.Value
import proofs.«105969_j84696755077155_1_alg».proof.Proof.KI.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Fr.frame m ρ
/-- So does its idealization. -/
theorem frame_ki : Cert.frame_KernelIdeal := fun m ρ _ => Cert.KernelIdeal.Fr.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the result array at the specification
    `Cert.Fourier.G` of the arguments. -/
theorem algebraic : Cert.algebraic_KernelIdeal_ReferenceIdeal := by
  intro m ρ m' ρ' _ hagree
  refine ⟨fun c => Cert.Fourier.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
